-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1024x1 : Shape := ⟨2, ![1024, 1]⟩
abbrev S1x8192 : Shape := ⟨2, ![1, 8192]⟩
abbrev S1024x3 : Shape := ⟨2, ![1024, 3]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S4x8192 : Shape := ⟨2, ![4, 8192]⟩
abbrev S_ : Shape := ⟨0, ![]⟩
abbrev S4 : Shape := ⟨1, ![4]⟩

abbrev nBuf : Space → Nat
  | .hbm => 24
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1024x1, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v47 : BitVec 32 := Scalar.muli arg2 c1024_i32
  v47
def k0_off1 (i : grid0.Coords) : Fin 2 → Nat :=
  let c0_16 : Index := 0#32
  let arg2 : BitVec 32 := BitVec.ofNat 32 (i 2).val
  let c1024_i32 : BitVec 32 := 1024#32
  let v47 : BitVec 32 := Scalar.muli arg2 c1024_i32
  let v48 : BitVec 32 := v47
  let v49 : Index := Scalar.indexCast v48
  ![0, v49.toNat]
def k0_cond3 (i : grid0.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_18 : BitVec 32 := 0#32
  let v58 : BitVec 1 := Scalar.cmpi .ne v57 c0_i32_18
  v58

def k0_cond4 (i : grid0.Coords) : BitVec 1 :=
  let arg1 : BitVec 32 := BitVec.ofNat 32 (i 1).val
  let c7_i32_19 : BitVec 32 := 7#32
  let v59 : BitVec 1 := Scalar.cmpi .eq arg1 c7_i32_19
  let arg2 : BitVec 32 := BitVec.ofNat 32 (i 2).val
  let c7_i32_20 : BitVec 32 := 7#32
  let v60 : BitVec 1 := Scalar.cmpi .eq arg2 c7_i32_20
  let v61 : BitVec 1 := Scalar.andi v59 v60
  let v62 : BitVec 32 := Scalar.extui v61
  let c0_i32_21 : BitVec 32 := 0#32
  let v63 : BitVec 1 := Scalar.cmpi .ne v62 c0_i32_21
  v63

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  transposes_S1024x3_p1_0_S3x1024 : S1024x3.Transposes [1, 0] S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the two programs, free of either program's text.

  Two clouds of 8192 points in R^3 per batch element (4 batch elements).  For a pair of points the distance is
  `dst d2 = sqrt (max d2 0)` of a squared distance `d2`, which the kernel takes as the sum of the three squared
  coordinate differences (`d2K`) and the reference as |p|^2 + |t|^2 - 2 p.t (`d2R`).  The kernel keeps, per batch
  element, the least distance of every point of the first cloud to the second cloud (`rowMin`) and of every point of the
  second cloud to the first (`colMin`), accumulating both tile by tile: `rowMinBelow` / `colMinBelow` are the least
  distances over an initial stretch of the other cloud, which is what the accumulators hold between tiles.
  Infima are taken in the complete lattice of the extended reals; an infimum over nothing is +inf, the value the
  accumulators are reset to.
-/
import Idealize.ShloMosaic.PureOps.Ideal
import Idealize.ShloMosaic.Lib.ValueIdx

noncomputable section

namespace Cert.Chamfer

open Idealize.ShloMosaic Idealize.ShloMosaic.ValueIdx

/-- The shape of an array of points: batch, point, coordinate. -/
abbrev SP : Shape := ⟨3, ![4, 8192, 3]⟩

/-- Point `i` of batch element `b`, as its three coordinates. -/
def pt (P : SP.Idx → EReal) (b : Fin 4) (i : Fin 8192) : Fin 3 → EReal := fun k => P (ix3 b i k)

/-- The squared distance as the kernel forms it: zero, plus the three squared differences, left to right. -/
def d2K (p t : Fin 3 → EReal) : EReal :=
  ((0 + (p 0 - t 0) * (p 0 - t 0)) + (p 1 - t 1) * (p 1 - t 1)) + (p 2 - t 2) * (p 2 - t 2)

/-- The squared distance as the reference forms it: the two squared norms (each a sum from zero) less twice the inner product. -/
def d2R (p t : Fin 3 → EReal) : EReal :=
  ((0 + ∑ k : Fin 3, p k * p k) + (0 + ∑ k : Fin 3, t k * t k)) - 2 * ∑ k : Fin 3, p k * t k

/-- The distance of a squared distance: negative round-off is cut at zero before the root. -/
def dst (d2 : EReal) : EReal := Ideal.sqrt (max d2 0)

/-- The kernel's distance between point `n` of the first cloud and point `m` of the second, in batch element `b`. -/
def distK (P T : SP.Idx → EReal) (b : Fin 4) (n m : Fin 8192) : EReal := dst (d2K (pt P b n) (pt T b m))

/-- The reference's distance between the same two points. -/
def distR (P T : SP.Idx → EReal) (b : Fin 4) (n m : Fin 8192) : EReal := dst (d2R (pt P b n) (pt T b m))

/-- The least of `D b n m` over the `m` below `M`. -/
def rowMinBelow (D : Fin 4 → Fin 8192 → Fin 8192 → EReal) (b : Fin 4) (n : Fin 8192) (M : ℕ) : EReal :=
  ⨅ m : Fin 8192, ⨅ _ : m.val < M, D b n m

/-- The least of `D b n m` over the `n` below `N`. -/
def colMinBelow (D : Fin 4 → Fin 8192 → Fin 8192 → EReal) (b : Fin 4) (m : Fin 8192) (N : ℕ) : EReal :=
  ⨅ n : Fin 8192, ⨅ _ : n.val < N, D b n m

/-- The least of `D b n m` over all `m`. -/
def rowMin (D : Fin 4 → Fin 8192 → Fin 8192 → EReal) (b : Fin 4) (n : Fin 8192) : EReal := ⨅ m : Fin 8192, D b n m

/-- The least of `D b n m` over all `n`. -/
def colMin (D : Fin 4 → Fin 8192 → Fin 8192 → EReal) (b : Fin 4) (m : Fin 8192) : EReal := ⨅ n : Fin 8192, D b n m

variable (D : Fin 4 → Fin 8192 → Fin 8192 → EReal) (b : Fin 4)

theorem le_rowMinBelow_iff (n : Fin 8192) (M : ℕ) (c : EReal) :
    c ≤ rowMinBelow D b n M ↔ ∀ m : Fin 8192, m.val < M → c ≤ D b n m := by
  unfold rowMinBelow; simp only [le_iInf_iff]

theorem le_colMinBelow_iff (m : Fin 8192) (N : ℕ) (c : EReal) :
    c ≤ colMinBelow D b m N ↔ ∀ n : Fin 8192, n.val < N → c ≤ D b n m := by
  unfold colMinBelow; simp only [le_iInf_iff]

theorem rowMinBelow_zero (n : Fin 8192) : rowMinBelow D b n 0 = ⊤ :=
  top_unique ((le_rowMinBelow_iff D b n 0 ⊤).2 fun _ h => absurd h (Nat.not_lt_zero _))

theorem colMinBelow_zero (m : Fin 8192) : colMinBelow D b m 0 = ⊤ :=
  top_unique ((le_colMinBelow_iff D b m 0 ⊤).2 fun _ h => absurd h (Nat.not_lt_zero _))

theorem rowMinBelow_full (n : Fin 8192) : rowMinBelow D b n 8192 = rowMin D b n :=
  eq_of_forall_le_iff fun c => by
    rw [le_rowMinBelow_iff]; unfold rowMin; rw [le_iInf_iff]
    exact ⟨fun h m => h m m.isLt, fun h m _ => h m⟩

theorem colMinBelow_full (m : Fin 8192) : colMinBelow D b m 8192 = colMin D b m :=
  eq_of_forall_le_iff fun c => by
    rw [le_colMinBelow_iff]; unfold colMin; rw [le_iInf_iff]
    exact ⟨fun h n => h n n.isLt, fun h n _ => h n⟩

/-- One tile more along the second cloud: the least over the `m` below `M`, met with the least over the tile's 1024
    points (`tile`, given by what it is a lower bound of), is the least over the `m` below `M + 1024`. -/
theorem rowMinBelow_step (n : Fin 8192) (M : ℕ) (hM : M + 1024 ≤ 8192) (tile : EReal)
    (htile : ∀ c : EReal, c ≤ tile ↔ ∀ q : Fin 1024, c ≤ D b n ⟨M + q.val, by have := q.isLt; omega⟩) :
    min (rowMinBelow D b n M) tile = rowMinBelow D b n (M + 1024) :=
  eq_of_forall_le_iff fun c => by
    rw [le_min_iff, le_rowMinBelow_iff, le_rowMinBelow_iff, htile]
    constructor
    · rintro ⟨h1, h2⟩ m hm
      by_cases h : m.val < M
      · exact h1 m h
      · have := h2 ⟨m.val - M, by omega⟩
        have e : (⟨M + (m.val - M), by omega⟩ : Fin 8192) = m := Fin.ext (by simp only; omega)
        rwa [e] at this
    · intro h
      exact ⟨fun m hm => h m (by omega), fun q => h _ (by simp only; have := q.isLt; omega)⟩

/-- One tile more along the first cloud. -/
theorem colMinBelow_step (m : Fin 8192) (N : ℕ) (hN : N + 1024 ≤ 8192) (tile : EReal)
    (htile : ∀ c : EReal, c ≤ tile ↔ ∀ r : Fin 1024, c ≤ D b ⟨N + r.val, by have := r.isLt; omega⟩ m) :
    min (colMinBelow D b m N) tile = colMinBelow D b m (N + 1024) :=
  eq_of_forall_le_iff fun c => by
    rw [le_min_iff, le_colMinBelow_iff, le_colMinBelow_iff, htile]
    constructor
    · rintro ⟨h1, h2⟩ n hn
      by_cases h : n.val < N
      · exact h1 n h
      · have := h2 ⟨n.val - N, by omega⟩
        have e : (⟨N + (n.val - N), by omega⟩ : Fin 8192) = n := Fin.ext (by simp only; omega)
        rwa [e] at this
    · intro h
      exact ⟨fun n hn => h n (by omega), fun r => h _ (by simp only; have := r.isLt; omega)⟩

end Cert.Chamfer

end
-- ==== Proof.Algebra.lean ====
/-
  The one algebraic law between the two programs: for points with finite coordinates, the sum of the three squared
  coordinate differences is the two squared norms less twice the inner product.  On the extended reals this needs the
  coordinates finite (a difference of infinities is not cancelled by expanding the square), so it is proved on the reals
  and carried over by the coercion.
-/
import proofs.«104237_j16003048145306_1_alg».proof.Proof.Spec

noncomputable section

namespace Cert.Chamfer

/-- Expanding the squares, over the reals. -/
theorem d2_real (a0 a1 a2 c0 c1 c2 : ℝ) :
    ((0 + (a0 - c0) * (a0 - c0)) + (a1 - c1) * (a1 - c1)) + (a2 - c2) * (a2 - c2)
      = ((0 + (a0 * a0 + a1 * a1 + a2 * a2)) + (0 + (c0 * c0 + c1 * c1 + c2 * c2))) - 2 * (a0 * c0 + a1 * c1 + a2 * c2) := by
  ring

/-- For finite coordinates the kernel's squared distance is the reference's. -/
theorem d2K_eq_d2R (p t : Fin 3 → EReal) (hp : ∀ k, ∃ r : ℝ, p k = (r : EReal)) (ht : ∀ k, ∃ r : ℝ, t k = (r : EReal)) :
    d2K p t = d2R p t := by
  choose a ha using hp
  choose c hc using ht
  unfold d2K d2R
  rw [Fin.sum_univ_three, Fin.sum_univ_three, Fin.sum_univ_three]
  simp only [ha, hc]
  have h2 : (2 : EReal) = ((2 : ℝ) : EReal) := rfl
  rw [h2, ← EReal.coe_zero]
  simp only [← EReal.coe_mul, ← EReal.coe_add, ← EReal.coe_sub]
  exact congrArg _ (d2_real (a 0) (a 1) (a 2) (c 0) (c 1) (c 2))

/-- So the two distances agree on arrays of finite points. -/
theorem distK_eq_distR (P T : SP.Idx → EReal) (hP : ∀ i, ∃ r : ℝ, P i = (r : EReal)) (hT : ∀ i, ∃ r : ℝ, T i = (r : EReal)) :
    distK P T = distR P T := by
  funext b n m
  exact congrArg dst (d2K_eq_d2R (pt P b n) (pt T b m) (fun k => hP _) (fun k => hT _))

end Cert.Chamfer

end
-- ==== Proof.Finite.lean ====
import proofs.«104237_j16003048145306_1_alg».proof.Pre_finite_inputs
import proofs.«104237_j16003048145306_1_alg».proof.Proof.Gen.Pre_finite_inputs
import Idealize.ShloMosaic.PureOps.Ideal
import Idealize.ShloMosaic.Lib.ValueIdx
import Idealize.ShloMosaic.Lib.ReduceAll
noncomputable section
namespace Cert.Chamfer.Finite
open Idealize.ShloMosaic

/-- The shape of rank 0 has exactly one index. -/
private instance subsingleton_scalar_idx : Subsingleton Cert.Pre_finite_inputs.S_.Idx :=
  ⟨fun a b => funext fun d => d.elim0⟩

/-- An extended real whose absolute value max a (-a) lies strictly below +∞ is a real number:
    at ⊥ the negation is ⊤, at ⊤ the value itself is ⊤, and neither is below ⊤. -/
private theorem real_of_abs_lt_top (a : EReal) (h : max a (-a) < ⊤) : ∃ r : ℝ, a = (r : EReal) := by
  induction a using EReal.rec with
  | bot => simp at h
  | coe r => exact ⟨r, rfl⟩
  | top => simp at h

/-- The word of the comparison |a| < +∞ (the f32 pattern 0x7F800000 denotes +∞) being 1 says
    that a is a real number. -/
private theorem real_of_word (a : Ideal .f32)
    (h : FloatOps.cmpf (F := Ideal) .olt (FloatOps.hostAbsf a)
      (FloatOps.ofBits (F := Ideal) .f32 0x7F800000#32) = 1#1) : ∃ r : ℝ, a = (r : EReal) := by
  refine real_of_abs_lt_top a ?_
  have htop : Ideal.ofBits .f32 0x7F800000#32 = (⊤ : EReal) := by simp [Ideal.ofBits, Ideal.ieee]
  change BitVec.ofBool (decide (max a (-a) < Ideal.ofBits .f32 0x7F800000#32)) = 1#1 at h
  rw [htop] at h
  by_contra hn
  simp [hn] at h

/-- If the precondition's word is 1 at the Ideal instance, every entry of both arrays is a real number. -/
theorem real_of_pre (x y : FVec Ideal Cert.Pre_finite_inputs.S4x8192x3 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · exact real_of_word (x i) (Host.reduce_andi_all _ _ _ _ _ hx i)
  · exact real_of_word (y i) (Host.reduce_andi_all _ _ _ _ _ hy i)

end Cert.Chamfer.Finite
end
-- ==== Proof.Blocks.lean ====
import proofs.«104237_j16003048145306_1_alg».proof.Proof.Gen.KernelIdeal.Frame.Runs
import Idealize.ShloMosaic.Lib.ValueIdx
import Idealize.ShloMosaic.Lib.Pipeline.Value
set_option maxRecDepth 16384
noncomputable section
namespace Cert.KernelIdeal.Blocks
open Idealize.ShloMosaic Idealize.ShloMosaic.TcCoe Idealize.ShloMosaic.ValueIdx Idealize.SL.Sem Cert.KernelIdeal Cert.KernelIdeal.Gen
variable {F : FTy → Type} [FloatOps F]
variable (m : (ℓ : Loc nD τ sig) → Buf (Elt F) ℓ)

/-! ## The geometry of the four windows over the grid of 4·8·8 = 256 points

Point `t` has batch `b = t / 64`, first-cloud tile `n = t / 8 % 8` and second-cloud tile `j = t % 8`.
A block's coordinate on an axis is its block index times the block's extent there, plus the coordinate
inside the block. -/

/-- The grid has 256 points. -/
theorem tlt (t : Fin cfg0.N) : t.val < 256 := lt_of_lt_of_eq t.isLt N_0

/-! ### The block indices, point by point -/

/-- The first cloud's block index at point `t` is `(b, n, 0)`. -/
theorem idx0 : ∀ t : Fin cfg0.N, win0_0.index t (0 : Fin 3) = t.val / 64 ∧ win0_0.index t (1 : Fin 3) = t.val / 8 % 8 ∧ win0_0.index t (2 : Fin 3) = 0 :=
  (by decide +kernel : ∀ t : Fin grid0.N, win0_0.index t (0 : Fin 3) = t.val / 64 ∧ win0_0.index t (1 : Fin 3) = t.val / 8 % 8 ∧ win0_0.index t (2 : Fin 3) = 0)

/-- The second cloud's block index at point `t` is `(b, j, 0)`. -/
theorem idx1 : ∀ t : Fin cfg0.N, win0_1.index t (0 : Fin 3) = t.val / 64 ∧ win0_1.index t (1 : Fin 3) = t.val % 8 ∧ win0_1.index t (2 : Fin 3) = 0 :=
  (by decide +kernel : ∀ t : Fin grid0.N, win0_1.index t (0 : Fin 3) = t.val / 64 ∧ win0_1.index t (1 : Fin 3) = t.val % 8 ∧ win0_1.index t (2 : Fin 3) = 0)

/-- The first output's block index at point `t` is `(b, 0, n)`. -/
theorem idx2 : ∀ t : Fin cfg0.N, win0_2.index t (0 : Fin 3) = t.val / 64 ∧ win0_2.index t (1 : Fin 3) = 0 ∧ win0_2.index t (2 : Fin 3) = t.val / 8 % 8 :=
  (by decide +kernel : ∀ t : Fin grid0.N, win0_2.index t (0 : Fin 3) = t.val / 64 ∧ win0_2.index t (1 : Fin 3) = 0 ∧ win0_2.index t (2 : Fin 3) = t.val / 8 % 8)

/-- The second output's block index at point `t` is `(b, 0, 0)`. -/
theorem idx3 : ∀ t : Fin cfg0.N, win0_3.index t (0 : Fin 3) = t.val / 64 ∧ win0_3.index t (1 : Fin 3) = 0 ∧ win0_3.index t (2 : Fin 3) = 0 :=
  (by decide +kernel : ∀ t : Fin grid0.N, win0_3.index t (0 : Fin 3) = t.val / 64 ∧ win0_3.index t (1 : Fin 3) = 0 ∧ win0_3.index t (2 : Fin 3) = 0)

/-- The grid's last coordinate at point `t` is `t % 8`. -/
theorem coord2 : ∀ t : Fin cfg0.N, (grid0.coords t 2).val = t.val % 8 :=
  (by decide +kernel : ∀ t : Fin grid0.N, (grid0.coords t 2).val = t.val % 8)

/-! ### The input blocks, entry by entry -/

/-- the first cloud's block at point t, read at (0, r, k): point (t/8 % 8)·1024 + r of batch t/64 -/
theorem iblk0_apply (c : Dev nD) (t : Fin cfg0.N) (r : Fin 1024) (k : Fin 3) :
    (iblk m c 0 t : Vec F S1x1024x3 .f32) (ix3 0 r k)
      = (V m c main_arg0 : Vec F S4x8192x3 .f32) (ix3 ⟨t.val / 64, by have := tlt t; omega⟩ ⟨(t.val / 8 % 8) * 1024 + r.val, by have := r.isLt; omega⟩ k) := by
  obtain ⟨e0, e1, e2⟩ := idx0 t
  unfold iblk
  rw [View.read_apply]
  show V m c main_arg0 (((cfg0.win 0).blk t).view.emb (ix3 0 r k)) = V m c main_arg0 _
  congr 1
  funext a; apply Fin.ext
  -- axis by axis: block index × block extent + the coordinate inside the block
  match a with
  | ⟨0, _⟩ => show win0_0.index t (0 : Fin 3) * 1 + 1 * (0 : Fin 1).val = t.val / 64; rw [e0]; simp
  | ⟨1, _⟩ => show win0_0.index t (1 : Fin 3) * 1024 + 1 * r.val = (t.val / 8 % 8) * 1024 + r.val; rw [e1]; omega
  | ⟨2, _⟩ => show win0_0.index t (2 : Fin 3) * 3 + 1 * k.val = k.val; rw [e2]; omega

/-- the second cloud's block at point t, read at (0, q, k): point (t % 8)·1024 + q of batch t/64 -/
theorem iblk1_apply (c : Dev nD) (t : Fin cfg0.N) (q : Fin 1024) (k : Fin 3) :
    (iblk m c 1 t : Vec F S1x1024x3 .f32) (ix3 0 q k)
      = (V m c main_arg1 : Vec F S4x8192x3 .f32) (ix3 ⟨t.val / 64, by have := tlt t; omega⟩ ⟨(t.val % 8) * 1024 + q.val, by have := q.isLt; omega⟩ k) := by
  obtain ⟨e0, e1, e2⟩ := idx1 t
  unfold iblk
  rw [View.read_apply]
  show V m c main_arg1 (((cfg0.win 1).blk t).view.emb (ix3 0 q k)) = V m c main_arg1 _
  congr 1
  funext a; apply Fin.ext
  match a with
  | ⟨0, _⟩ => show win0_1.index t (0 : Fin 3) * 1 + 1 * (0 : Fin 1).val = t.val / 64; rw [e0]; simp
  | ⟨1, _⟩ => show win0_1.index t (1 : Fin 3) * 1024 + 1 * q.val = (t.val % 8) * 1024 + q.val; rw [e1]; omega
  | ⟨2, _⟩ => show win0_1.index t (2 : Fin 3) * 3 + 1 * k.val = k.val; rw [e2]; omega

/-! ### The output blocks, read off an array of the output's shape -/

/-- block t of an array G of the first output's shape, read at (0,0,q) -/
theorem read_blk2 (c : Dev nD) (t : Fin cfg0.N) (G : Buf (Elt F) ((cfg0.win 2).arr.view.loc (c.tc : Thread nD τ))) (q : Fin 1024) :
    (((cfg0.win 2).blk t).view.read (Elt F) G : Vec F S1x1x1024 .f32) (ix3 0 0 q)
      = (G : Vec F S4x1x8192 .f32) (ix3 ⟨t.val / 64, by have := tlt t; omega⟩ 0 ⟨(t.val / 8 % 8) * 1024 + q.val, by have := q.isLt; omega⟩) := by
  obtain ⟨e0, e1, e2⟩ := idx2 t
  rw [View.read_apply]
  show (G : Vec F S4x1x8192 .f32) (((cfg0.win 2).blk t).view.emb (ix3 0 0 q)) = (G : Vec F S4x1x8192 .f32) _
  congr 1
  funext a; apply Fin.ext
  match a with
  | ⟨0, _⟩ => show win0_2.index t (0 : Fin 3) * 1 + 1 * (0 : Fin 1).val = t.val / 64; rw [e0]; simp
  | ⟨1, _⟩ => show win0_2.index t (1 : Fin 3) * 1 + 1 * (0 : Fin 1).val = (0 : Fin 1).val; rw [e1]; simp
  | ⟨2, _⟩ => show win0_2.index t (2 : Fin 3) * 1024 + 1 * q.val = (t.val / 8 % 8) * 1024 + q.val; rw [e2]; omega

/-- block t of an array G of the second output's shape, read at (0,0,q) -/
theorem read_blk3 (c : Dev nD) (t : Fin cfg0.N) (G : Buf (Elt F) ((cfg0.win 3).arr.view.loc (c.tc : Thread nD τ))) (q : Fin 8192) :
    (((cfg0.win 3).blk t).view.read (Elt F) G : Vec F S1x1x8192 .f32) (ix3 0 0 q)
      = (G : Vec F S4x1x8192 .f32) (ix3 ⟨t.val / 64, by have := tlt t; omega⟩ 0 q) := by
  obtain ⟨e0, e1, e2⟩ := idx3 t
  rw [View.read_apply]
  show (G : Vec F S4x1x8192 .f32) (((cfg0.win 3).blk t).view.emb (ix3 0 0 q)) = (G : Vec F S4x1x8192 .f32) _
  congr 1
  funext a; apply Fin.ext
  match a with
  | ⟨0, _⟩ => show win0_3.index t (0 : Fin 3) * 1 + 1 * (0 : Fin 1).val = t.val / 64; rw [e0]; simp
  | ⟨1, _⟩ => show win0_3.index t (1 : Fin 3) * 1 + 1 * (0 : Fin 1).val = (0 : Fin 1).val; rw [e1]; simp
  | ⟨2, _⟩ => show win0_3.index t (2 : Fin 3) * 8192 + 1 * q.val = q.val; rw [e2]; omega

/-! ### The output blocks that are written back cover the output arrays -/

/-- every entry of the first output lies in the block of some point that writes it back:
    entry (b, 0, col) in the block of point 64·b + 8·(col / 1024) + 7 -/
theorem cover2 (c : Dev nD) : ∀ i : ((cfg0.win 2).arr.view.loc (c.tc : Thread nD τ)).2.ty.Idx,
    ∃ t : Fin cfg0.N, (cfg0.win 2).flush t = true ∧ i ∈ ((cfg0.win 2).blk t).view.set := by
  intro i
  have h0 : (i 0 : Nat) < 4 := (i 0).isLt
  have h1 : (i 1 : Nat) < 1 := (i 1).isLt
  have h2 : (i 2 : Nat) < 8192 := (i 2).isLt
  have hN : cfg0.N = 256 := N_0
  obtain ⟨t, tv⟩ : ∃ t : Fin cfg0.N, t.val = 64 * (i 0 : Nat) + 8 * ((i 2 : Nat) / 1024) + 7 :=
    ⟨⟨64 * (i 0 : Nat) + 8 * ((i 2 : Nat) / 1024) + 7, by rw [hN]; omega⟩, rfl⟩
  obtain ⟨e0, e1, e2⟩ := idx2 t
  refine ⟨t, (flush0_2 t).mpr (by omega), ?_⟩
  show i ∈ ((View.whole main_v0_0).slice (win0_2.rect t)).set
  rw [View.set_slice_whole, Rect.mem_set_unit]
  intro a
  -- axis by axis: block index × extent ≤ coordinate < block index × extent + extent
  match a with
  | ⟨0, _⟩ =>
    show win0_2.index t (0 : Fin 3) * 1 ≤ (i 0 : Nat) ∧ (i 0 : Nat) < win0_2.index t (0 : Fin 3) * 1 + 1
    rw [e0]; omega
  | ⟨1, _⟩ =>
    show win0_2.index t (1 : Fin 3) * 1 ≤ (i 1 : Nat) ∧ (i 1 : Nat) < win0_2.index t (1 : Fin 3) * 1 + 1
    rw [e1]; omega
  | ⟨2, _⟩ =>
    show win0_2.index t (2 : Fin 3) * 1024 ≤ (i 2 : Nat) ∧ (i 2 : Nat) < win0_2.index t (2 : Fin 3) * 1024 + 1024
    rw [e2]; omega

/-- every entry of the second output lies in the block of some point that writes it back:
    entry (b, 0, col) in the block of point 64·b + 63 -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set := by
  intro i
  have h0 : (i 0 : Nat) < 4 := (i 0).isLt
  have h1 : (i 1 : Nat) < 1 := (i 1).isLt
  have h2 : (i 2 : Nat) < 8192 := (i 2).isLt
  have hN : cfg0.N = 256 := N_0
  obtain ⟨t, tv⟩ : ∃ t : Fin cfg0.N, t.val = 64 * (i 0 : Nat) + 63 :=
    ⟨⟨64 * (i 0 : Nat) + 63, by rw [hN]; omega⟩, rfl⟩
  obtain ⟨e0, e1, e2⟩ := idx3 t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    rw [e0]; omega
  | ⟨1, _⟩ =>
    show win0_3.index t (1 : Fin 3) * 1 ≤ (i 1 : Nat) ∧ (i 1 : Nat) < win0_3.index t (1 : Fin 3) * 1 + 1
    rw [e1]; omega
  | ⟨2, _⟩ =>
    show win0_3.index t (2 : Fin 3) * 8192 ≤ (i 2 : Nat) ∧ (i 2 : Nat) < win0_3.index t (2 : Fin 3) * 8192 + 8192
    rw [e2]; omega

/-! ### The column accumulator's slice -/

/-- the dynamic slice of the column accumulator at point t starts at column 1024·(t % 8) -/
theorem off1_eq (t : Fin cfg0.N) : k0_off1 (grid0.coords t) = ![0, 1024 * (t.val % 8)] := by
  rw [k0_off1_eq, coord2 t]

end Cert.KernelIdeal.Blocks
end
-- ==== Proof.Payload.lean ====
import proofs.«104237_j16003048145306_1_alg».proof.Proof.Gen.KernelIdeal.Skeleton
import proofs.«104237_j16003048145306_1_alg».proof.Proof.Spec
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.Pay
open Idealize.ShloMosaic Idealize.ShloMosaic.ValueIdx Cert.KernelIdeal Cert.KernelIdeal.Gen Cert.Chamfer

/-! ## Small readings: the two literals, a square root at an index, a vector as a one-column matrix -/

/-- the word of +inf denotes the greatest extended real -/
private theorem ofBits_inf_f32 : Ideal.ofBits .f32 0x7F800000#32 = ⊤ := by simp [Ideal.ofBits, Ideal.ieee]

/-- a square root read at an index is the root of the element -/
private theorem sqrt_apply {s : Shape} {φ : FTy} (a : FVec Ideal s φ) (i : s.Idx) : sqrt a i = Ideal.sqrt (a i) := rfl

/-- a vector viewed as a one-column matrix reads, at (i, 0), the vector at i: both have row-major position i -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two operands of a squared difference, read at (r, q) -/

/-- coordinate o of row r of a block of points, spread along the columns of the tile: entry (r, q) of the spread
    is entry (r, 0) of the one-column cut, which is entry (r, o) of the block as a matrix, entry (0, r, o) of the block -/
private theorem rowCoord (x : Vec Ideal S1x1024x3 .f32) (o : Nat) (ho : o < 3)
    (hc : S1x1024x3.ShapeCasts S1024x3) (hs : S1024x3.Slices ![0, o] S1024x1) (hb : S1024x1.Broadcasts S1024x1024)
    (r q : Fin 1024) :
    broadcastTo S1024x1024 (extractStridedSlice S1024x1 ![0, o] (shapeCast S1024x3 x hc) hs) hb (ix2 r q)
      = x (ix3 0 r ⟨o, ho⟩) := by
  refine (broadcastTo_apply _ hb (ix2 r q) (ix2 r 0) (fun a => match a with | ⟨0, _⟩ => rfl | ⟨1, _⟩ => rfl)).trans ?_
  refine (slice2_axis1_apply o _ hs r 0 ⟨o, ho⟩ rfl).trans ?_
  exact shapeCast_1ab_ab_apply x hc r ⟨o, ho⟩

/-- coordinate o of row q of a block of points, transposed and spread along the rows of the tile: entry (r, q) of the
    spread is entry (0, q) of the one-row cut, entry (o, q) of the transposed matrix, entry (q, o) of the block as a
    matrix, entry (0, q, o) of the block -/
private theorem colCoord (x : Vec Ideal S1x1024x3 .f32) (o : Nat) (ho : o < 3)
    (hc : S1x1024x3.ShapeCasts S1024x3) (ht : S1024x3.Transposes [1, 0] S3x1024) (hs : S3x1024.Slices ![o, 0] S1x1024)
    (hb : S1x1024.Broadcasts S1024x1024) (r q : Fin 1024) :
    broadcastTo S1024x1024 (extractStridedSlice S1x1024 ![o, 0] (transpose S3x1024 [1, 0] (shapeCast S1024x3 x hc) ht) hs) hb (ix2 r q)
      = x (ix3 0 q ⟨o, ho⟩) := by
  refine (broadcastTo_1b_ab_apply _ hb r q).trans ?_
  refine (slice2_axis0_apply o _ hs 0 q ⟨o, ho⟩ rfl).trans ?_
  refine (transpose_ix2_apply _ ht ⟨o, ho⟩ q).trans ?_
  exact shapeCast_1ab_ab_apply x hc q ⟨o, ho⟩

/-! ## A minimum along one axis, by what it is a lower bound of -/

/-- a lower bound of the minimum along one axis, started from +inf, is a lower bound of every entry along that axis:
    the minimum is the fold of min over the axis's coordinates, a fold of min is bounded below by what bounds its start
    and every term, and +inf is bounded below by everything -/
private theorem le_minReduce_iff {s t : Shape} {a : Fin s.rank} (src : FVec Ideal s .f32) (h : s.Reduces [a] t)
    (hφ : FKind.Formats .f32) (hacc : (0x7F800000#32 : BitVec 32) = FKind.minimumf.neutral .f32 hφ) (j : t.Idx) (c : EReal) :
    c ≤ multiReduction (F := Ideal) .minimumf [a] t src 0x7F800000#32 h hφ hacc j ↔ ∀ k : Fin (s.size a), c ≤ src (h.lift j k) := by
  rw [multiReduction_minimumf_eq_fold, h.fold_filter_drop_single]
  show c ≤ Finset.fold min (Ideal.ofBits .f32 0x7F800000#32) (src ∘ h.lift j) Finset.univ ↔ _
  rw [Finset.le_fold_min, ofBits_inf_f32]
  exact ⟨fun hh k => hh.2 k (Finset.mem_univ k), fun hh => ⟨le_top, fun k _ => hh k⟩⟩

/-! ## The payloads -/

/-- entry (r, q) of the tile of distances: the distance between row r of the first block and row q of the second -/
theorem pay7_apply (x0 x1 : Vec Ideal S1x1024x3 .f32) (r q : Fin 1024) :
    k0_pay7 (F := Ideal) x0 x1 (ix2 r q) = dst (d2K (fun k => x0 (ix3 0 r k)) (fun k => x1 (ix3 0 q k))) := by
  unfold k0_pay7 dst d2K
  -- the pointwise operations read through to the elements
  simp only [sqrt_apply, maximumf_apply, addf_apply, mulf_apply, subf_apply, broadcast_apply]
  -- the six operands of the three differences are the six coordinates of the two rows
  rw [rowCoord x0 0 (by omega), rowCoord x0 1 (by omega), rowCoord x0 2 (by omega),
    colCoord x1 0 (by omega), colCoord x1 1 (by omega), colCoord x1 2 (by omega)]
  -- the zero literal is the extended real 0
  simp only [Ideal.ofBits_def, Ideal.ofBits_zero_f32]
  rfl

/-- the row minimum of the tile, by what it is a lower bound of (the reduction starts from +inf, which bounds nothing) -/
theorem le_pay8_iff (x0 x1 : Vec Ideal S1x1024x3 .f32) (r : Fin 1024) (c : EReal) :
    c ≤ k0_pay8 (F := Ideal) x0 x1 (ix2 r 0) ↔ ∀ q : Fin 1024, c ≤ k0_pay7 (F := Ideal) x0 x1 (ix2 r q) := by
  show c ≤ shapeCast S1024x1 (multiReduction (F := Ideal) .minimumf [1] S1024 (k0_pay7 (F := Ideal) x0 x1) 0x7F800000#32
          reduces_S1024x1024_S1024 (.inl rfl) rfl) shapeCasts_S1024_S1024x1 (ix2 r 0) ↔ _
  rw [shapeCast_a_a1_apply]
  refine (le_minReduce_iff (k0_pay7 (F := Ideal) x0 x1) reduces_S1024x1024_S1024 _ _ (ix1 r) c).trans ?_
  -- the index over r with column k inserted is (r, k)
  have hl : ∀ k : Fin 1024, reduces_S1024x1024_S1024.lift (ix1 r) k = ix2 r k := fun k =>
    funext fun a => match a with | ⟨0, _⟩ => Fin.ext rfl | ⟨1, _⟩ => Fin.ext rfl
  exact forall_congr' fun k => by rw [hl k]

theorem pay1_apply (v39 : FVec Ideal S1024x1 .f32) (v42 : Vec Ideal S1024x1 .f32) (r : Fin 1024) :
    k0_pay1 (F := Ideal) v39 v42 (ix2 r 0) = min (v42 (ix2 r 0)) (v39 (ix2 r 0)) := by
  show shapeCast S1024x1 (minimumf (F := Ideal) (φ := .f32) v42 v39) shapeCasts_S1024x1_S1024x1 (ix2 r 0) = _
  rw [shapeCast_self]
  rfl

/-- the running column minimum met with the tile's column minimum -/
theorem le_pay2_iff (v37 : FVec Ideal S1024x1024 .f32) (v50 : Vec Ideal S1x1024 .f32) (q : Fin 1024) (c : EReal) :
    c ≤ k0_pay2 (F := Ideal) v37 v50 (ix2 0 q) ↔ c ≤ v50 (ix2 0 q) ∧ ∀ r : Fin 1024, c ≤ v37 (ix2 r q) := by
  show c ≤ shapeCast S1x1024 (minimumf (F := Ideal) (φ := .f32) v50
      (shapeCast S1x1024 (multiReduction (F := Ideal) .minimumf [0] S1024 v37 0x7F800000#32
          reduces_S1024x1024_S1024_2 (.inl rfl) rfl) shapeCasts_S1024_S1x1024)) shapeCasts_S1x1024_S1x1024 (ix2 0 q) ↔ _
  rw [shapeCast_self, minimumf_apply, shapeCast_a_1a_apply, le_min_iff]
  refine and_congr_right fun _ => (le_minReduce_iff v37 reduces_S1024x1024_S1024_2 _ _ (ix1 q) c).trans ?_
  -- the index over q with row k inserted is (k, q)
  have hl : ∀ k : Fin 1024, reduces_S1024x1024_S1024_2.lift (ix1 q) k = ix2 k q := fun k =>
    funext fun a => match a with | ⟨0, _⟩ => Fin.ext rfl | ⟨1, _⟩ => Fin.ext rfl
  exact forall_congr' fun k => by rw [hl k]

theorem pay3_apply (v64 : Vec Ideal S1024x1 .f32) (r : Fin 1024) : k0_pay3 (F := Ideal) v64 (ix3 0 0 r) = v64 (ix2 r 0) := by
  show shapeCast S1x1x1024 (transpose S1x1024 [1, 0] v64 transposes_S1024x1_p1_0_S1x1024) shapeCasts_S1x1024_S1x1x1024 (ix3 0 0 r) = _
  rw [shapeCast_ab_1ab_apply, transpose_ix2_apply]

theorem pay4_apply (v64 : Vec Ideal S1x8192 .f32) (q : Fin 8192) : k0_pay4 (F := Ideal) v64 (ix3 0 0 q) = v64 (ix2 0 q) := by
  show shapeCast S1x1x8192 v64 shapeCasts_S1x8192_S1x1x8192 (ix3 0 0 q) = _
  rw [shapeCast_ab_1ab_apply]

theorem pay5_apply (y : S1x8192.Idx) : k0_pay5 (F := Ideal) y = ⊤ := by
  show shapeCast S1x8192 (broadcast S1x8192 (Ideal.ofBits .f32 0x7F800000#32)) shapeCasts_S1x8192_S1x8192 y = _
  rw [shapeCast_self, broadcast_apply, ofBits_inf_f32]

theorem pay6_apply (y : S1024x1.Idx) : k0_pay6 (F := Ideal) y = ⊤ := by
  show shapeCast S1024x1 (broadcast S1024x1 (Ideal.ofBits .f32 0x7F800000#32)) shapeCasts_S1024x1_S1024x1 y = _
  rw [shapeCast_self, broadcast_apply, ofBits_inf_f32]

end Cert.KernelIdeal.Pay
end
-- ==== Proof.Clouds.lean ====
/-
  The two clouds as the kernel's region finds them, their matrix of distances, and the grid's bookkeeping: point t of
  the 4·8·8 grid works on batch element t / 64, on tile t / 8 % 8 of the first cloud and tile t % 8 of the second, so
  row r of its tile of distances is point 1024·(t / 8 % 8) + r of the first cloud and column q is point 1024·(t % 8) + q
  of the second.  The tile's entry (r, q) is the kernel's distance between those two points.
-/
import proofs.«104237_j16003048145306_1_alg».proof.Proof.Gen.KernelIdeal.Frame
import proofs.«104237_j16003048145306_1_alg».proof.Proof.Spec
import proofs.«104237_j16003048145306_1_alg».proof.Proof.Blocks
import proofs.«104237_j16003048145306_1_alg».proof.Proof.Payload

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.Chamfer

variable (m : (ℓ : Loc nD τ sig) → Buf (Elt Ideal) ℓ)

/-- The first cloud, as the region finds it. -/
abbrev PP (c : Dev nD) : SP.Idx → EReal := V m c main_arg0
/-- The second cloud, as the region finds it. -/
abbrev TT (c : Dev nD) : SP.Idx → EReal := V m c main_arg1
/-- The matrix of distances between the two clouds, per batch element. -/
def DD (c : Dev nD) : Fin 4 → Fin 8192 → Fin 8192 → EReal := distK (PP m c) (TT m c)

/-- The batch element point t works on. -/
abbrev bOf (t : Fin cfg0.N) : Fin 4 := ⟨t.val / 64, by have := tlt t; omega⟩
/-- The point of the first cloud in row r of point t's tile. -/
abbrev rowOf (t : Fin cfg0.N) (r : Fin 1024) : Fin 8192 := ⟨(t.val / 8 % 8) * 1024 + r.val, by have := r.isLt; omega⟩
/-- The point of the second cloud in column q of point t's tile. -/
abbrev colOf (t : Fin cfg0.N) (q : Fin 1024) : Fin 8192 := ⟨(t.val % 8) * 1024 + q.val, by have := q.isLt; omega⟩

/-- Entry (r, q) of the tile of distances point t computes is the distance between its row's and its column's points. -/
theorem tile_apply (c : Dev nD) (t : Fin cfg0.N) (r q : Fin 1024) :
    k0_pay7 (F := Ideal) (iblk m c 0 t) (iblk m c 1 t) (ix2 r q) = DD m c (bOf t) (rowOf t r) (colOf t q) := by
  refine (Pay.pay7_apply (iblk m c 0 t) (iblk m c 1 t) r q).trans ?_
  unfold DD distK
  refine congrArg dst (congrArg₂ d2K (funext fun k => ?_) (funext fun k => ?_))
  · exact iblk0_apply m c t r k
  · exact iblk1_apply m c t q k

/-- Two partial row minima at equal places are equal. -/
theorem rowMinBelow_congr (D : Fin 4 → Fin 8192 → Fin 8192 → EReal) {b b' : Fin 4} {n n' : Fin 8192} {M M' : ℕ}
    (hb : b.val = b'.val) (hn : n.val = n'.val) (hM : M = M') : rowMinBelow D b n M = rowMinBelow D b' n' M' := by
  obtain rfl := Fin.ext hb; obtain rfl := Fin.ext hn; subst hM; rfl

/-- Two partial column minima at equal places are equal. -/
theorem colMinBelow_congr (D : Fin 4 → Fin 8192 → Fin 8192 → EReal) {b b' : Fin 4} {q q' : Fin 8192} {N N' : ℕ}
    (hb : b.val = b'.val) (hq : q.val = q'.val) (hN : N = N') : colMinBelow D b q N = colMinBelow D b' q' N' := by
  obtain rfl := Fin.ext hb; obtain rfl := Fin.ext hq; subst hN; rfl

end Cert.KernelIdeal.Inv

end
-- ==== Proof.Pieces.lean ====
/-
  What each control case of the kernel's body leaves in the buffers it stores into, as terms over the body's payloads.

  The body keeps two running minima in scratch memory: a column of 1024 entries (one per point of the current tile of
  the first cloud) and a row of 8192 entries (one per point of the second cloud).  At every grid point it forms the
  1024 x 1024 tile of distances, meets the column accumulator with the tile's row minima, and meets the slice of the
  row accumulator that belongs to the current tile of the second cloud with the tile's column minima; either
  accumulator is first filled with +inf at the points where its sweep starts.  At the end of a sweep the accumulator is
  copied out: the column accumulator transposed into the first output's block, the row accumulator into the second's.
  The lemmas below read the stores each case's run found back as values: a buffer stored whole holds the last store's
  payload; the partly stored row accumulator holds the new payload inside the slice and its former contents outside.
-/
import proofs.«104237_j16003048145306_1_alg».proof.Proof.Gen.KernelIdeal.Frame
import Idealize.ShloMosaic.Lib.Pipeline.Value
import Idealize.ShloMosaic.Lib.WritesUnit
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole-shape rectangle at zero offsets, read back, is its payload. -/
theorem read_writes_unit_zero {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; exact View.read_writes_whole v f w

/-- The slice of the column accumulator a point updates: one row, the 1024 columns of the point's tile of the second cloud. -/
abbrev sliceRect (i : grid0.Coords) : Rect S1x8192 := Rect.unit (s := S1x8192) (k0_off1 i) S1x1024.size (k0_off1_inb i)

/-- Case B: what the point leaves in the row accumulator. -/
theorem sout_B_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : ¬cond0_2 i) (hc3 : ¬cond0_3 i) (x0 x1 : Vec F S1x1024x3 .f32) (xs0 : Vec F S1024x1 .f32) (xs1 : Vec F S1x8192 .f32) :
    sout0_B_0 c i a3 h3 a4 h4 a5 h5 a6 h6 a7 h7 a8 h8 hc0 hc1 hc2 hc3 x0 x1 xs0 xs1 = k0_pay1 (k0_pay8 x0 x1) xs0 := by
  unfold sout0_B_0
  rw [View.read_writes_eq_canon _ _ _ (scover0_B_0 c i a3 h3 a4 h4 a5 h5 a6 h6 a7 h7 a8 h8 hc0 hc1 hc2 hc3 x0 x1 xs0 xs1)]
  unfold kernelRun0_B
  dsimp only
  sl_unfold_words
  rw [View.canon_unit_zero hz2]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case B: the column accumulator inside the slice of this point's tile. -/
theorem sout_B_1_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : ¬cond0_2 i) (hc3 : ¬cond0_3 i) (x0 x1 : Vec F S1x1024x3 .f32) (xs0 : Vec F S1024x1 .f32) (xs1 : Vec F S1x8192 .f32) (y : S1x8192.Idx)
    (x : (sliceRect i).shape.Idx) (hx : ∀ a, (y a).val = (![0, 1024 * (i 2).val] : Fin 2 → ℕ) a + (x a).val) :
    sout0_B_1 c i a3 h3 a4 h4 a5 h5 a6 h6 a7 h7 a8 h8 hc0 hc1 hc2 hc3 x0 x1 xs0 xs1 y = k0_pay2 (k0_pay7 x0 x1) (View.ld xs1 (sliceRect i)) x := by
  unfold sout0_B_1
  unfold kernelRun0_B
  dsimp only
  sl_unfold_words
  refine (View.read_writes_cons_unit_of_mem a8.view (h8.unread xs1) (k0_off1_inb i) _ [] y x (k0_off1_eq i) hx).trans ?_
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]
  rfl

/-- Case B: the column accumulator outside that slice keeps what it held. -/
theorem sout_B_1_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : ¬cond0_2 i) (hc3 : ¬cond0_3 i) (x0 x1 : Vec F S1x1024x3 .f32) (xs0 : Vec F S1024x1 .f32) (xs1 : Vec F S1x8192 .f32) (y : S1x8192.Idx)
    (hy : (y 1).val < 1024 * (i 2).val ∨ 1024 * (i 2).val + 1024 ≤ (y 1).val) :
    sout0_B_1 c i a3 h3 a4 h4 a5 h5 a6 h6 a7 h7 a8 h8 hc0 hc1 hc2 hc3 x0 x1 xs0 xs1 y = xs1 y := by
  unfold sout0_B_1
  unfold kernelRun0_B
  dsimp only
  refine (View.read_writes_cons_unit_of_not_mem a8.view (h8.unread xs1) (k0_off1_inb i) _ [] y (k0_off1_eq i) 1 hy).trans ?_
  rw [View.writes_nil, h8.read_unread]

/-- Case C: what the point leaves in the row accumulator. -/
theorem sout_C_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x8192 .f32) :
    sout0_C_0 c i a3 h3 a4 h4 a5 h5 a6 h6 a7 h7 a8 h8 hc0 hc1 hc2 hc3 x0 x1 xs0 xs1 = k0_pay1 (k0_pay8 x0 x1) xs0 := by
  unfold sout0_C_0
  rw [View.read_writes_eq_canon _ _ _ (scover0_C_0 c i a3 h3 a4 h4 a5 h5 a6 h6 a7 h7 a8 h8 hc0 hc1 hc2 hc3 x0 x1 xs0 xs1)]
  unfold kernelRun0_C
  dsimp only
  sl_unfold_words
  rw [View.canon_unit_zero hz2]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case C: the column accumulator inside the slice of this point's tile. -/
theorem sout_C_1_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x8192 .f32) (y : S1x8192.Idx)
    (x : (sliceRect i).shape.Idx) (hx : ∀ a, (y a).val = (![0, 1024 * (i 2).val] : Fin 2 → ℕ) a + (x a).val) :
    sout0_C_1 c i a3 h3 a4 h4 a5 h5 a6 h6 a7 h7 a8 h8 hc0 hc1 hc2 hc3 x0 x1 xs0 xs1 y = k0_pay2 (k0_pay7 x0 x1) (View.ld xs1 (sliceRect i)) x := by
  unfold sout0_C_1
  unfold kernelRun0_C
  dsimp only
  sl_unfold_words
  refine (View.read_writes_cons_unit_of_mem a8.view (h8.unread xs1) (k0_off1_inb i) _ [] y x (k0_off1_eq i) hx).trans ?_
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]
  rfl

/-- Case C: the column accumulator outside that slice keeps what it held. -/
theorem sout_C_1_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x8192 .f32) (y : S1x8192.Idx)
    (hy : (y 1).val < 1024 * (i 2).val ∨ 1024 * (i 2).val + 1024 ≤ (y 1).val) :
    sout0_C_1 c i a3 h3 a4 h4 a5 h5 a6 h6 a7 h7 a8 h8 hc0 hc1 hc2 hc3 x0 x1 xs0 xs1 y = xs1 y := by
  unfold sout0_C_1
  unfold kernelRun0_C
  dsimp only
  refine (View.read_writes_cons_unit_of_not_mem a8.view (h8.unread xs1) (k0_off1_inb i) _ [] y (k0_off1_eq i) 1 hy).trans ?_
  rw [View.writes_nil, h8.read_unread]

/-- Case E: what the point leaves in the row accumulator. -/
theorem sout_E_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x8192 .f32) :
    sout0_E_0 c i a3 h3 a4 h4 a5 h5 a6 h6 a7 h7 a8 h8 hc0 hc1 hc2 hc3 x0 x1 xs0 xs1 = k0_pay1 (k0_pay8 x0 x1) xs0 := by
  unfold sout0_E_0
  rw [View.read_writes_eq_canon _ _ _ (scover0_E_0 c i a3 h3 a4 h4 a5 h5 a6 h6 a7 h7 a8 h8 hc0 hc1 hc2 hc3 x0 x1 xs0 xs1)]
  unfold kernelRun0_E
  dsimp only
  sl_unfold_words
  rw [View.canon_unit_zero hz2]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case E: the column accumulator inside the slice of this point's tile. -/
theorem sout_E_1_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x8192 .f32) (y : S1x8192.Idx)
    (x : (sliceRect i).shape.Idx) (hx : ∀ a, (y a).val = (![0, 1024 * (i 2).val] : Fin 2 → ℕ) a + (x a).val) :
    sout0_E_1 c i a3 h3 a4 h4 a5 h5 a6 h6 a7 h7 a8 h8 hc0 hc1 hc2 hc3 x0 x1 xs0 xs1 y = k0_pay2 (k0_pay7 x0 x1) (View.ld xs1 (sliceRect i)) x := by
  unfold sout0_E_1
  unfold kernelRun0_E
  dsimp only
  sl_unfold_words
  refine (View.read_writes_cons_unit_of_mem a8.view (h8.unread xs1) (k0_off1_inb i) _ [] y x (k0_off1_eq i) hx).trans ?_
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]
  rfl

/-- Case E: the column accumulator outside that slice keeps what it held. -/
theorem sout_E_1_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x8192 .f32) (y : S1x8192.Idx)
    (hy : (y 1).val < 1024 * (i 2).val ∨ 1024 * (i 2).val + 1024 ≤ (y 1).val) :
    sout0_E_1 c i a3 h3 a4 h4 a5 h5 a6 h6 a7 h7 a8 h8 hc0 hc1 hc2 hc3 x0 x1 xs0 xs1 y = xs1 y := by
  unfold sout0_E_1
  unfold kernelRun0_E
  dsimp only
  refine (View.read_writes_cons_unit_of_not_mem a8.view (h8.unread xs1) (k0_off1_inb i) _ [] y (k0_off1_eq i) 1 hy).trans ?_
  rw [View.writes_nil, h8.read_unread]

/-- Case D: what the point leaves in the row accumulator. -/
theorem sout_D_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : cond0_1 i) (hc2 : ¬cond0_2 i) (hc3 : ¬cond0_3 i) (x0 x1 : Vec F S1x1024x3 .f32) (xs1 : Vec F S1x8192 .f32) :
    sout0_D_0 c i a3 h3 a4 h4 a5 h5 a6 h6 a7 h7 a8 h8 hc0 hc1 hc2 hc3 x0 x1 xs1 = k0_pay1 (k0_pay8 x0 x1) k0_pay6 := by
  unfold sout0_D_0
  rw [View.read_writes_eq_canon _ _ _ (scover0_D_0 c i a3 h3 a4 h4 a5 h5 a6 h6 a7 h7 a8 h8 hc0 hc1 hc2 hc3 x0 x1 xs1)]
  unfold kernelRun0_D
  dsimp only
  sl_unfold_words
  rw [View.canon_cons_unit_zero (S := S1024x1) hz2, View.readCov_unit_zero (S := S1024x1) _ hz2]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case D: the column accumulator inside the slice of this point's tile. -/
theorem sout_D_1_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : cond0_1 i) (hc2 : ¬cond0_2 i) (hc3 : ¬cond0_3 i) (x0 x1 : Vec F S1x1024x3 .f32) (xs1 : Vec F S1x8192 .f32) (y : S1x8192.Idx)
    (x : (sliceRect i).shape.Idx) (hx : ∀ a, (y a).val = (![0, 1024 * (i 2).val] : Fin 2 → ℕ) a + (x a).val) :
    sout0_D_1 c i a3 h3 a4 h4 a5 h5 a6 h6 a7 h7 a8 h8 hc0 hc1 hc2 hc3 x0 x1 xs1 y = k0_pay2 (k0_pay7 x0 x1) (View.ld xs1 (sliceRect i)) x := by
  unfold sout0_D_1
  unfold kernelRun0_D
  dsimp only
  sl_unfold_words
  refine (View.read_writes_cons_unit_of_mem a8.view (h8.unread xs1) (k0_off1_inb i) _ [] y x (k0_off1_eq i) hx).trans ?_
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]
  rfl

/-- Case D: the column accumulator outside that slice keeps what it held. -/
theorem sout_D_1_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : cond0_1 i) (hc2 : ¬cond0_2 i) (hc3 : ¬cond0_3 i) (x0 x1 : Vec F S1x1024x3 .f32) (xs1 : Vec F S1x8192 .f32) (y : S1x8192.Idx)
    (hy : (y 1).val < 1024 * (i 2).val ∨ 1024 * (i 2).val + 1024 ≤ (y 1).val) :
    sout0_D_1 c i a3 h3 a4 h4 a5 h5 a6 h6 a7 h7 a8 h8 hc0 hc1 hc2 hc3 x0 x1 xs1 y = xs1 y := by
  unfold sout0_D_1
  unfold kernelRun0_D
  dsimp only
  refine (View.read_writes_cons_unit_of_not_mem a8.view (h8.unread xs1) (k0_off1_inb i) _ [] y (k0_off1_eq i) 1 hy).trans ?_
  rw [View.writes_nil, h8.read_unread]

/-- Case C: the first output's block is the row accumulator just updated, laid along the lanes. -/
theorem out_C_2 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x8192 .f32) :
    out0_C_2 c i a3 h3 a4 h4 a5 h5 a6 h6 a7 h7 a8 h8 hc0 hc1 hc2 hc3 x0 x1 xs0 xs1 = k0_pay3 (k0_pay1 (k0_pay8 x0 x1) xs0) := by
  unfold out0_C_2
  rw [View.read_writes_eq_canon _ _ _ (cover0_C_2 c i a3 h3 a4 h4 a5 h5 a6 h6 a7 h7 a8 h8 hc0 hc1 hc2 hc3 x0 x1 xs0 xs1)]
  unfold kernelRun0_C
  dsimp only
  sl_unfold_words
  rw [View.canon_unit_zero hz3]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case E: the first output's block is the row accumulator just updated, laid along the lanes. -/
theorem out_E_2 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x8192 .f32) :
    out0_E_2 c i a3 h3 a4 h4 a5 h5 a6 h6 a7 h7 a8 h8 hc0 hc1 hc2 hc3 x0 x1 xs0 xs1 = k0_pay3 (k0_pay1 (k0_pay8 x0 x1) xs0) := by
  unfold out0_E_2
  rw [View.read_writes_eq_canon _ _ _ (cover0_E_2 c i a3 h3 a4 h4 a5 h5 a6 h6 a7 h7 a8 h8 hc0 hc1 hc2 hc3 x0 x1 xs0 xs1)]
  unfold kernelRun0_E
  dsimp only
  sl_unfold_words
  rw [View.canon_unit_zero hz3]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case E: the second output's block is the column accumulator just updated. -/
theorem out_E_3 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x8192 .f32) :
    out0_E_3 c i a3 h3 a4 h4 a5 h5 a6 h6 a7 h7 a8 h8 hc0 hc1 hc2 hc3 x0 x1 xs0 xs1 = k0_pay4 (sout0_E_1 c i a3 h3 a4 h4 a5 h5 a6 h6 a7 h7 a8 h8 hc0 hc1 hc2 hc3 x0 x1 xs0 xs1) := by
  unfold out0_E_3
  rw [View.read_writes_eq_canon _ _ _ (cover0_E_3 c i a3 h3 a4 h4 a5 h5 a6 h6 a7 h7 a8 h8 hc0 hc1 hc2 hc3 x0 x1 xs0 xs1)]
  unfold sout0_E_1
  unfold kernelRun0_E
  dsimp only
  sl_unfold_words
  rw [View.canon_unit_zero hz3]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case A: the row accumulator, reset to +inf and updated. -/
theorem sout_A_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : cond0_1 i) (hc2 : ¬cond0_2 i) (hc3 : ¬cond0_3 i) (x0 x1 : Vec F S1x1024x3 .f32) :
    sout0_A_0 c i a3 h3 a4 h4 a5 h5 a6 h6 a7 h7 a8 h8 hc0 hc1 hc2 hc3 x0 x1 = k0_pay1 (k0_pay8 x0 x1) k0_pay6 := by
  unfold sout0_A_0
  rw [View.read_writes_eq_canon _ _ _ (scover0_A_0 c i a3 h3 a4 h4 a5 h5 a6 h6 a7 h7 a8 h8 hc0 hc1 hc2 hc3 x0 x1)]
  unfold kernelRun0_A
  dsimp only
  sl_unfold_words
  rw [View.canon_cons_unit_zero (S := S1024x1) hz2, View.readCov_unit_zero (S := S1024x1) _ hz2]
  simp only [View.readAt_eq_ld, h3.read_unread, h4.read_unread, h7.read_unread, h8.read_unread, View.ld_unit_zero (S := S1024x1) hz2, View.ld_unit_zero (S := S1x8192) hz2, View.ld_unit_zero (S := S1x1024x3) hz3, View.readCov_unit_zero (S := S1024x1) a7.view hz2]

/-- Case A: the column accumulator, reset to +inf, inside the first tile's slice. -/
theorem sout_A_1_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : cond0_1 i) (hc2 : ¬cond0_2 i) (hc3 : ¬cond0_3 i) (x0 x1 : Vec F S1x1024x3 .f32) (y : S1x8192.Idx)
    (x : (sliceRect i).shape.Idx) (hx : ∀ a, (y a).val = (![0, 1024 * (i 2).val] : Fin 2 → ℕ) a + (x a).val) :
    sout0_A_1 c i a3 h3 a4 h4 a5 h5 a6 h6 a7 h7 a8 h8 hc0 hc1 hc2 hc3 x0 x1 y = k0_pay2 (k0_pay7 x0 x1) (View.ld k0_pay5 (sliceRect i)) x := by
  unfold sout0_A_1
  unfold kernelRun0_A
  dsimp only
  sl_unfold_words
  refine (View.read_writes_cons_unit_of_mem VS0_1 VS0_1.junk (k0_off1_inb i) _ _ y x (k0_off1_eq i) hx).trans ?_
  simp only [View.readAt_eq_ld, h3.read_unread, h4.read_unread, View.ld_unit_zero (S := S1x1024x3) hz3, read_writes_unit_zero (S := S1x8192) a8.view _ hz2]
  rfl

/-- Case A: outside that slice the column accumulator holds the +inf it was reset to. -/
theorem sout_A_1_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : cond0_1 i) (hc2 : ¬cond0_2 i) (hc3 : ¬cond0_3 i) (x0 x1 : Vec F S1x1024x3 .f32) (y : S1x8192.Idx)
    (hy : (y 1).val < 1024 * (i 2).val ∨ 1024 * (i 2).val + 1024 ≤ (y 1).val) :
    sout0_A_1 c i a3 h3 a4 h4 a5 h5 a6 h6 a7 h7 a8 h8 hc0 hc1 hc2 hc3 x0 x1 y = k0_pay5 y := by
  unfold sout0_A_1
  unfold kernelRun0_A
  dsimp only
  sl_unfold_words
  refine (View.read_writes_cons_unit_of_not_mem VS0_1 VS0_1.junk (k0_off1_inb i) _ _ y (k0_off1_eq i) 1 hy).trans ?_
  rw [read_writes_unit_zero (S := S1x8192) VS0_1 VS0_1.junk hz2]

end Cert.KernelIdeal.Pieces
end
-- ==== Proof.RowInv.lean ====
import proofs.«104237_j16003048145306_1_alg».proof.Proof.Clouds
import proofs.«104237_j16003048145306_1_alg».proof.Proof.Pieces

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.Chamfer

variable (m : (ℓ : Loc nD τ sig) → Buf (Elt Ideal) ℓ)

/-! ## One point's step of the sweep along the second cloud -/

/-- The row minimum of point t's tile of distances, in row r, by what it is a lower bound of: the distances from the
    row's point of the first cloud to the 1024 points of the second cloud in the point's tile. -/
private theorem le_tileRow_iff (c : Dev nD) (t : Fin cfg0.N) (r : Fin 1024) (x : EReal) :
    x ≤ k0_pay8 (F := Ideal) (iblk m c 0 t) (iblk m c 1 t) (ix2 r 0)
      ↔ ∀ q : Fin 1024, x ≤ DD m c (bOf t) (rowOf t r) ⟨(t.val % 8) * 1024 + q.val, by have := q.isLt; omega⟩ := by
  refine (Pay.le_pay8_iff (iblk m c 0 t) (iblk m c 1 t) r x).trans ?_
  exact forall_congr' fun q => by rw [tile_apply m c t r q]

/-- The least distance over the columns below point t's tile, met with the tile's row minimum, is the least distance
    over the columns up to the tile's end: 1024·(t % 8) + 1024 = 1024·(t % 8 + 1). -/
private theorem row_step (c : Dev nD) (t : Fin cfg0.N) (r : Fin 1024) (acc : EReal)
    (hacc : acc = rowMinBelow (DD m c) (bOf t) (rowOf t r) ((t.val % 8) * 1024)) :
    min acc (k0_pay8 (F := Ideal) (iblk m c 0 t) (iblk m c 1 t) (ix2 r 0))
      = rowMinBelow (DD m c) (bOf t) (rowOf t r) ((t.val % 8 + 1) * 1024) := by
  subst hacc
  refine (rowMinBelow_step (DD m c) (bOf t) (rowOf t r) ((t.val % 8) * 1024) (by omega) _ (le_tileRow_iff m c t r)).trans ?_
  exact rowMinBelow_congr _ rfl rfl (by omega)

/-! ## What each control case leaves in the row accumulator -/

/-- Case A (first tile of both clouds): the accumulator is filled with +inf, then met with the tile's row minimum. -/
private theorem acc_A (c : Dev nD) (t : Fin cfg0.N) (h0 : t.val % 64 = 0) (h1 : t.val % 8 = 0) (h2 : ¬t.val % 8 = 7) (h3 : ¬t.val % 64 = 63) (r : Fin 1024) :
    (outsAt0 m c t.val t.isLt).2.2.1 (ix2 r 0)
      = min (⊤ : EReal) (k0_pay8 (F := Ideal) (iblk m c 0 t) (iblk m c 1 t) (ix2 r 0)) := by
  rw [outsAt0_A m c t h0 h1 h2 h3]; dsimp only
  refine (congrFun (Pieces.sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)) (ix2 r 0)).trans ?_
  refine (Pay.pay1_apply _ _ r).trans ?_
  exact congrArg (fun z => min z (k0_pay8 (F := Ideal) (iblk m c 0 t) (iblk m c 1 t) (ix2 r 0))) (Pay.pay6_apply (ix2 r 0))

/-- Case D (first tile of the second cloud): the accumulator is filled with +inf, then met with the tile's row minimum. -/
private theorem acc_D (c : Dev nD) (t : Fin cfg0.N) (h0 : ¬t.val % 64 = 0) (h1 : t.val % 8 = 0) (h2 : ¬t.val % 8 = 7) (h3 : ¬t.val % 64 = 63) (r : Fin 1024) :
    (outsAt0 m c t.val t.isLt).2.2.1 (ix2 r 0)
      = min (⊤ : EReal) (k0_pay8 (F := Ideal) (iblk m c 0 t) (iblk m c 1 t) (ix2 r 0)) := by
  rw [outsAt0_D m c t h0 h1 h2 h3]; dsimp only
  refine (congrFun (Pieces.sout_D_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2) (ix2 r 0)).trans ?_
  refine (Pay.pay1_apply _ _ r).trans ?_
  exact congrArg (fun z => min z (k0_pay8 (F := Ideal) (iblk m c 0 t) (iblk m c 1 t) (ix2 r 0))) (Pay.pay6_apply (ix2 r 0))

/-- Case B: the accumulator's former entry met with the tile's row minimum. -/
private theorem acc_B (c : Dev nD) (t : Fin cfg0.N) (h0 : ¬t.val % 64 = 0) (h1 : ¬t.val % 8 = 0) (h2 : ¬t.val % 8 = 7) (h3 : ¬t.val % 64 = 63) (r : Fin 1024) :
    (outsAt0 m c t.val t.isLt).2.2.1 (ix2 r 0)
      = min ((outsAt0 m c (t.val - 1) (Nat.lt_of_le_of_lt (Nat.sub_le _ _) t.isLt)).2.2.1 (ix2 r 0)) (k0_pay8 (F := Ideal) (iblk m c 0 t) (iblk m c 1 t) (ix2 r 0)) := by
  rw [outsAt0_B m c t h0 h1 h2 h3]; dsimp only
  refine (congrFun (Pieces.sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans ?_
  exact Pay.pay1_apply _ _ r

/-- Case C: the accumulator's former entry met with the tile's row minimum. -/
private theorem acc_C (c : Dev nD) (t : Fin cfg0.N) (h0 : ¬t.val % 64 = 0) (h1 : ¬t.val % 8 = 0) (h2 : t.val % 8 = 7) (h3 : ¬t.val % 64 = 63) (r : Fin 1024) :
    (outsAt0 m c t.val t.isLt).2.2.1 (ix2 r 0)
      = min ((outsAt0 m c (t.val - 1) (Nat.lt_of_le_of_lt (Nat.sub_le _ _) t.isLt)).2.2.1 (ix2 r 0)) (k0_pay8 (F := Ideal) (iblk m c 0 t) (iblk m c 1 t) (ix2 r 0)) := by
  rw [outsAt0_C m c t h0 h1 h2 h3]; dsimp only
  refine (congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans ?_
  exact Pay.pay1_apply _ _ r

/-- Case E: the accumulator's former entry met with the tile's row minimum. -/
private theorem acc_E (c : Dev nD) (t : Fin cfg0.N) (h0 : ¬t.val % 64 = 0) (h1 : ¬t.val % 8 = 0) (h2 : t.val % 8 = 7) (h3 : t.val % 64 = 63) (r : Fin 1024) :
    (outsAt0 m c t.val t.isLt).2.2.1 (ix2 r 0)
      = min ((outsAt0 m c (t.val - 1) (Nat.lt_of_le_of_lt (Nat.sub_le _ _) t.isLt)).2.2.1 (ix2 r 0)) (k0_pay8 (F := Ideal) (iblk m c 0 t) (iblk m c 1 t) (ix2 r 0)) := by
  rw [outsAt0_E m c t h0 h1 h2 h3]; dsimp only
  refine (congrFun (Pieces.sout_E_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans ?_
  exact Pay.pay1_apply _ _ r

/-! ## The first output's block at the end of a sweep -/

/-- Case C: the first output's block is the updated row accumulator, transposed: its entry (0, 0, r) is the
    accumulator's entry (r, 0) after the point. -/
private theorem blk_C (c : Dev nD) (t : Fin cfg0.N) (h0 : ¬t.val % 64 = 0) (h1 : ¬t.val % 8 = 0) (h2 : t.val % 8 = 7) (h3 : ¬t.val % 64 = 63) (r : Fin 1024) :
    (outsAt0 m c t.val t.isLt).1 (ix3 0 0 r) = (outsAt0 m c t.val t.isLt).2.2.1 (ix2 r 0) := by
  rw [outsAt0_C m c t h0 h1 h2 h3]; dsimp only
  refine (congrFun (Pieces.out_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 r)).trans ?_
  refine (Pay.pay3_apply _ r).trans ?_
  exact (congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).symm

/-- Case E: the first output's block is the updated row accumulator, transposed: its entry (0, 0, r) is the
    accumulator's entry (r, 0) after the point. -/
private theorem blk_E (c : Dev nD) (t : Fin cfg0.N) (h0 : ¬t.val % 64 = 0) (h1 : ¬t.val % 8 = 0) (h2 : t.val % 8 = 7) (h3 : t.val % 64 = 63) (r : Fin 1024) :
    (outsAt0 m c t.val t.isLt).1 (ix3 0 0 r) = (outsAt0 m c t.val t.isLt).2.2.1 (ix2 r 0) := by
  rw [outsAt0_E m c t h0 h1 h2 h3]; dsimp only
  refine (congrFun (Pieces.out_E_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 r)).trans ?_
  refine (Pay.pay3_apply _ r).trans ?_
  exact (congrFun (Pieces.sout_E_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).symm

/-! ## The sweep -/

/-- A point on the first tile of the second cloud (t % 8 = 0) starts the sweep: +inf is the least distance over no
    column, and one step gives the least distance over the first tile's columns. -/
private theorem rowAcc_reset (c : Dev nD) (t : Fin cfg0.N) (h1 : t.val % 8 = 0) (r : Fin 1024) :
    (outsAt0 m c t.val t.isLt).2.2.1 (ix2 r 0)
      = rowMinBelow (DD m c) (bOf t) (rowOf t r) ((t.val % 8 + 1) * 1024) := by
  have h2 : ¬t.val % 8 = 7 := by omega
  have h3 : ¬t.val % 64 = 63 := by omega
  have htop : (⊤ : EReal) = rowMinBelow (DD m c) (bOf t) (rowOf t r) ((t.val % 8) * 1024) :=
    (rowMinBelow_zero (DD m c) (bOf t) (rowOf t r)).symm.trans (rowMinBelow_congr _ rfl rfl (by omega))
  by_cases h0 : t.val % 64 = 0
  · exact (acc_A m c t h0 h1 h2 h3 r).trans (row_step m c t r _ htop)
  · exact (acc_D m c t h0 h1 h2 h3 r).trans (row_step m c t r _ htop)

/-- A point on a later tile of the second cloud (t % 8 ≠ 0) continues the sweep from what the point before left. -/
private theorem rowAcc_carry (c : Dev nD) (t : Fin cfg0.N) (h1 : ¬t.val % 8 = 0) (r : Fin 1024)
    (hprev : (outsAt0 m c (t.val - 1) (Nat.lt_of_le_of_lt (Nat.sub_le _ _) t.isLt)).2.2.1 (ix2 r 0)
      = rowMinBelow (DD m c) (bOf t) (rowOf t r) ((t.val % 8) * 1024)) :
    (outsAt0 m c t.val t.isLt).2.2.1 (ix2 r 0)
      = rowMinBelow (DD m c) (bOf t) (rowOf t r) ((t.val % 8 + 1) * 1024) := by
  have h0 : ¬t.val % 64 = 0 := by omega
  by_cases h2 : t.val % 8 = 7
  · by_cases h3 : t.val % 64 = 63
    · exact (acc_E m c t h0 h1 h2 h3 r).trans (row_step m c t r _ hprev)
    · exact (acc_C m c t h0 h1 h2 h3 r).trans (row_step m c t r _ hprev)
  · have h3 : ¬t.val % 64 = 63 := by omega
    exact (acc_B m c t h0 h1 h2 h3 r).trans (row_step m c t r _ hprev)

/-- The row accumulator after point n, by induction on n: a point with n % 8 = 0 starts the sweep; otherwise the point
    before works on the same batch element and the same tile of the first cloud ((n-1) / 64 = n / 64 and
    (n-1) / 8 = n / 8), and has swept the columns below 1024·((n-1) % 8 + 1) = 1024·(n % 8). -/
private theorem rowAcc_nat (c : Dev nD) : ∀ (n : ℕ) (hn : n < cfg0.N) (r : Fin 1024),
    (outsAt0 m c n hn).2.2.1 (ix2 r 0)
      = rowMinBelow (DD m c) (bOf ⟨n, hn⟩) (rowOf ⟨n, hn⟩ r) ((n % 8 + 1) * 1024) := by
  intro n
  induction n using Nat.strong_induction_on with
  | _ n ih =>
    intro hn r
    by_cases h1 : n % 8 = 0
    · exact rowAcc_reset m c ⟨n, hn⟩ h1 r
    · refine rowAcc_carry m c ⟨n, hn⟩ h1 r ?_
      refine (ih (n - 1) (by omega) _ r).trans ?_
      exact rowMinBelow_congr _ (by show (n - 1) / 64 = n / 64; omega)
        (by show ((n - 1) / 8 % 8) * 1024 + r.val = (n / 8 % 8) * 1024 + r.val; omega)
        (by show ((n - 1) % 8 + 1) * 1024 = (n % 8) * 1024; omega)

/-- After point t the row accumulator holds, in row r, the least distance from its row's point of the first cloud to
    the points of the second cloud in the tiles swept so far: those below 1024·(t % 8 + 1). -/
theorem rowAcc_eq (c : Dev nD) (t : Fin cfg0.N) (r : Fin 1024) :
    (outsAt0 m c t.val t.isLt).2.2.1 (ix2 r 0) = rowMinBelow (DD m c) (bOf t) (rowOf t r) ((t.val % 8 + 1) * 1024) :=
  rowAcc_nat m c t.val t.isLt r

/-- At the last tile of the second cloud the first output's block holds the least distance to the whole second cloud. -/
theorem out2_eq (c : Dev nD) (t : Fin cfg0.N) (h7 : t.val % 8 = 7) (r : Fin 1024) :
    (outsAt0 m c t.val t.isLt).1 (ix3 0 0 r) = rowMin (DD m c) (bOf t) (rowOf t r) := by
  have h0 : ¬t.val % 64 = 0 := by omega
  have h1 : ¬t.val % 8 = 0 := by omega
  -- the block's entry is the accumulator's entry after the point
  have hblk : (outsAt0 m c t.val t.isLt).1 (ix3 0 0 r) = (outsAt0 m c t.val t.isLt).2.2.1 (ix2 r 0) := by
    by_cases h3 : t.val % 64 = 63
    · exact blk_E m c t h0 h1 h7 h3 r
    · exact blk_C m c t h0 h1 h7 h3 r
  -- which is the least distance over the columns below 1024·(7 + 1) = 8192: all of them
  refine hblk.trans ((rowAcc_eq m c t r).trans ?_)
  exact (rowMinBelow_congr _ rfl rfl (by omega)).trans (rowMinBelow_full (DD m c) (bOf t) (rowOf t r))

end Cert.KernelIdeal.Inv

end
-- ==== Proof.ColInv.lean ====
/-
  The column accumulator, point by point.  For every point of the second cloud the kernel keeps the least distance to
  the points of the first cloud swept so far, one tile of 1024 columns updated per grid point; the invariant says which
  tiles of the first cloud each column has been met with after point t, and at a batch element's last point gives the
  least distance to the whole first cloud, which is what the second output's block holds.
-/
import proofs.«104237_j16003048145306_1_alg».proof.Proof.Clouds
import proofs.«104237_j16003048145306_1_alg».proof.Proof.Pieces

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.Chamfer

variable (m : (ℓ : Loc nD τ sig) → Buf (Elt Ideal) ℓ)

/-- Column q' of the slice point t updates is column 1024·(t % 8) + q' of the accumulator. -/
private theorem slice_idx (t : Fin cfg0.N) (q : Fin 8192) (q' : Fin 1024) (hq : q.val = 1024 * (t.val % 8) + q'.val) :
    (Pieces.sliceRect (grid0.coords t)).idx (ix2 (0 : Fin 1) q') = (ix2 (0 : Fin 1) q : S1x8192.Idx) := by
  funext a; apply Fin.ext
  match a with
  | ⟨0, _⟩ =>
    show k0_off1 (grid0.coords t) 0 + 1 * (0 : Fin 1).val = (0 : Fin 1).val
    rw [off1_eq t]; rfl
  | ⟨1, _⟩ =>
    show k0_off1 (grid0.coords t) 1 + 1 * q'.val = q.val
    rw [off1_eq t]
    show 1024 * (t.val % 8) + 1 * q'.val = q.val
    omega

/-- One tile more along the first cloud, inside the slice: the previous entry, the least distance to the tiles of the
    first cloud before point t's, met with the column minimum of point t's tile of distances, is the least distance
    to the tiles up to and including point t's. -/
private theorem upd_in (c : Dev nD) (t : Fin cfg0.N) (prev : Vec Ideal S1x8192 .f32) (q : Fin 8192) (q' : Fin 1024)
    (hq : q.val = 1024 * (t.val % 8) + q'.val)
    (hprev : prev (ix2 0 q) = colMinBelow (DD m c) (bOf t) q ((t.val / 8 % 8) * 1024)) :
    k0_pay2 (F := Ideal) (k0_pay7 (F := Ideal) (iblk m c 0 t) (iblk m c 1 t))
        (View.ld prev (Pieces.sliceRect (grid0.coords t))) (ix2 0 q')
      = colMinBelow (DD m c) (bOf t) q ((t.val / 8 % 8) * 1024 + 1024) := by
  have hN := tlt t
  have hcol : colOf t q' = q := Fin.ext (by show (t.val % 8) * 1024 + q'.val = q.val; omega)
  refine eq_of_forall_le_iff fun e => ?_
  refine (Pay.le_pay2_iff (k0_pay7 (F := Ideal) (iblk m c 0 t) (iblk m c 1 t))
    (View.ld prev (Pieces.sliceRect (grid0.coords t))) q' e).trans ?_
  rw [← colMinBelow_step (DD m c) (bOf t) q ((t.val / 8 % 8) * 1024) (by omega)
    (⨅ r : Fin 1024, DD m c (bOf t) (rowOf t r) q) (fun _ => le_iInf_iff), le_min_iff, le_iInf_iff]
  refine and_congr ?_ (forall_congr' fun r => ?_)
  · show e ≤ prev ((Pieces.sliceRect (grid0.coords t)).idx (ix2 (0 : Fin 1) q')) ↔ _
    rw [slice_idx t q q' hq, hprev]
  · rw [tile_apply m c t r q', hcol]

/-- The coordinates of column 1024·(t % 8) + q' of the accumulator, axis by axis: the slice's offsets plus the
    coordinates of column q' of the slice. -/
private theorem slice_hx (t : Fin cfg0.N) (q : Fin 8192) (q' : Fin 1024) (hq : q.val = 1024 * (t.val % 8) + q'.val) :
    ∀ a, ((ix2 (0 : Fin 1) q : S1x8192.Idx) a).val
      = (![0, 1024 * (grid0.coords t 2).val] : Fin 2 → ℕ) a
        + ((ix2 (0 : Fin 1) q' : (Pieces.sliceRect (grid0.coords t)).shape.Idx) a).val := fun a =>
  match a with
  | ⟨0, _⟩ => rfl
  | ⟨1, _⟩ => by
    show q.val = 1024 * (grid0.coords t 2).val + q'.val
    rw [coord2 t]; exact hq

/-- At a point that does not start a batch element, inside the slice: the previous accumulator's slice met with the
    column minima of the point's tile of distances. -/
private theorem acc_in (c : Dev nD) (t : Fin cfg0.N) (h0 : ¬t.val % 64 = 0) (q : Fin 8192) (q' : Fin 1024)
    (hq : q.val = 1024 * (t.val % 8) + q'.val) :
    (outsAt0 m c t.val t.isLt).2.2.2 (ix2 0 q)
      = k0_pay2 (F := Ideal) (k0_pay7 (F := Ideal) (iblk m c 0 t) (iblk m c 1 t))
          (View.ld (outsAt0 m c (t.val - 1) (Nat.lt_of_le_of_lt (Nat.sub_le _ _) t.isLt)).2.2.2 (Pieces.sliceRect (grid0.coords t))) (ix2 0 q') := by
  have hN := tlt t
  by_cases h1 : t.val % 8 = 0
  · have h2 : ¬t.val % 8 = 7 := by omega
    have h3 : ¬t.val % 64 = 63 := by omega
    rw [outsAt0_D m c t h0 h1 h2 h3]; dsimp only
    exact Pieces.sout_D_1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (ix2 0 q) (ix2 0 q') (slice_hx t q q' hq)
  · by_cases h2 : t.val % 8 = 7
    · by_cases h3 : t.val % 64 = 63
      · rw [outsAt0_E m c t h0 h1 h2 h3]; dsimp only
        exact Pieces.sout_E_1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (ix2 0 q) (ix2 0 q') (slice_hx t q q' hq)
      · rw [outsAt0_C m c t h0 h1 h2 h3]; dsimp only
        exact Pieces.sout_C_1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (ix2 0 q) (ix2 0 q') (slice_hx t q q' hq)
    · have h3 : ¬t.val % 64 = 63 := by omega
      rw [outsAt0_B m c t h0 h1 h2 h3]; dsimp only
      exact Pieces.sout_B_1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (ix2 0 q) (ix2 0 q') (slice_hx t q q' hq)

/-- At a point that does not start a batch element, outside the slice: what the point before left. -/
private theorem acc_out (c : Dev nD) (t : Fin cfg0.N) (h0 : ¬t.val % 64 = 0) (q : Fin 8192)
    (hq : q.val < 1024 * (t.val % 8) ∨ 1024 * (t.val % 8) + 1024 ≤ q.val) :
    (outsAt0 m c t.val t.isLt).2.2.2 (ix2 0 q) = (outsAt0 m c (t.val - 1) (Nat.lt_of_le_of_lt (Nat.sub_le _ _) t.isLt)).2.2.2 (ix2 0 q) := by
  have hN := tlt t
  by_cases h1 : t.val % 8 = 0
  · have h2 : ¬t.val % 8 = 7 := by omega
    have h3 : ¬t.val % 64 = 63 := by omega
    rw [outsAt0_D m c t h0 h1 h2 h3]; dsimp only
    exact Pieces.sout_D_1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (ix2 0 q) (by rw [coord2 t]; exact hq)
  · by_cases h2 : t.val % 8 = 7
    · by_cases h3 : t.val % 64 = 63
      · rw [outsAt0_E m c t h0 h1 h2 h3]; dsimp only
        exact Pieces.sout_E_1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (ix2 0 q) (by rw [coord2 t]; exact hq)
      · rw [outsAt0_C m c t h0 h1 h2 h3]; dsimp only
        exact Pieces.sout_C_1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (ix2 0 q) (by rw [coord2 t]; exact hq)
    · have h3 : ¬t.val % 64 = 63 := by omega
      rw [outsAt0_B m c t h0 h1 h2 h3]; dsimp only
      exact Pieces.sout_B_1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (ix2 0 q) (by rw [coord2 t]; exact hq)

/-- At a point that starts a batch element, inside the slice: the +inf fill met with the column minima of the tile. -/
private theorem accA_in (c : Dev nD) (t : Fin cfg0.N) (h0 : t.val % 64 = 0) (q : Fin 8192) (q' : Fin 1024)
    (hq : q.val = 1024 * (t.val % 8) + q'.val) :
    (outsAt0 m c t.val t.isLt).2.2.2 (ix2 0 q)
      = k0_pay2 (F := Ideal) (k0_pay7 (F := Ideal) (iblk m c 0 t) (iblk m c 1 t))
          (View.ld (k0_pay5 (F := Ideal)) (Pieces.sliceRect (grid0.coords t))) (ix2 0 q') := by
  have h1 : t.val % 8 = 0 := by omega
  have h2 : ¬t.val % 8 = 7 := by omega
  have h3 : ¬t.val % 64 = 63 := by omega
  rw [outsAt0_A m c t h0 h1 h2 h3]; dsimp only
  exact Pieces.sout_A_1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (ix2 0 q) (ix2 0 q') (slice_hx t q q' hq)

/-- At a point that starts a batch element, outside the slice: the +inf fill. -/
private theorem accA_out (c : Dev nD) (t : Fin cfg0.N) (h0 : t.val % 64 = 0) (q : Fin 8192)
    (hq : q.val < 1024 * (t.val % 8) ∨ 1024 * (t.val % 8) + 1024 ≤ q.val) :
    (outsAt0 m c t.val t.isLt).2.2.2 (ix2 0 q) = k0_pay5 (F := Ideal) (ix2 0 q) := by
  have h1 : t.val % 8 = 0 := by omega
  have h2 : ¬t.val % 8 = 7 := by omega
  have h3 : ¬t.val % 64 = 63 := by omega
  rw [outsAt0_A m c t h0 h1 h2 h3]; dsimp only
  exact Pieces.sout_A_1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (ix2 0 q) (by rw [coord2 t]; exact hq)

/-- The claim by the point's number, by induction on the point.  At a batch element's first point the accumulator is
    reset, so its first tile's columns hold the least distance to the first tile of the first cloud and the others
    +inf, the least over nothing.  At any other point the columns of the point's tile, which held the least distance
    to the tiles of the first cloud before the current one, are met with the current tile's column minima; the other
    columns keep what they held, and the bookkeeping of which columns the current sweep has visited moves on by one
    tile (wrapping to the next tile of the first cloud when the sweep over the second cloud restarts). -/
private theorem colAcc_nat (c : Dev nD) (n : ℕ) : ∀ (hn : n < cfg0.N) (q : Fin 8192),
    (outsAt0 m c n hn).2.2.2 (ix2 0 q)
      = colMinBelow (DD m c) (bOf ⟨n, hn⟩) q
          (if q.val < (n % 8 + 1) * 1024 then (n / 8 % 8 + 1) * 1024 else (n / 8 % 8) * 1024) := by
  induction n using Nat.strong_induction_on with
  | _ n ih =>
    intro hn q
    have hN : n < 256 := tlt ⟨n, hn⟩
    have hq8 := q.isLt
    by_cases h0 : n % 64 = 0
    · by_cases hin : q.val < 1024
      · have hq : q.val = 1024 * (n % 8) + q.val := by omega
        refine (accA_in m c ⟨n, hn⟩ h0 q ⟨q.val, hin⟩ hq).trans ?_
        refine (upd_in m c ⟨n, hn⟩ (k0_pay5 (F := Ideal)) q ⟨q.val, hin⟩ hq ?_).trans ?_
        · rw [Pay.pay5_apply]
          exact (colMinBelow_zero (DD m c) (bOf ⟨n, hn⟩) q).symm.trans
            (colMinBelow_congr (DD m c) rfl rfl (by show 0 = n / 8 % 8 * 1024; omega))
        · exact colMinBelow_congr (DD m c) rfl rfl (by show n / 8 % 8 * 1024 + 1024 = _; split_ifs <;> omega)
      · refine (accA_out m c ⟨n, hn⟩ h0 q (Or.inr (by show 1024 * (n % 8) + 1024 ≤ q.val; omega))).trans ?_
        rw [Pay.pay5_apply]
        refine (colMinBelow_zero (DD m c) (bOf ⟨n, hn⟩) q).symm.trans (colMinBelow_congr (DD m c) rfl rfl ?_)
        split_ifs <;> omega
    · have hp : n - 1 < cfg0.N := by omega
      have ihp := ih (n - 1) (by omega) hp q
      have hb : (bOf ⟨n - 1, hp⟩).val = (bOf ⟨n, hn⟩).val := by show (n - 1) / 64 = n / 64; omega
      by_cases hin : 1024 * (n % 8) ≤ q.val ∧ q.val < 1024 * (n % 8) + 1024
      · have hq : q.val = 1024 * (n % 8) + (q.val - 1024 * (n % 8)) := by omega
        refine (acc_in m c ⟨n, hn⟩ h0 q ⟨q.val - 1024 * (n % 8), by omega⟩ hq).trans ?_
        refine (upd_in m c ⟨n, hn⟩ (outsAt0 m c (n - 1) hp).2.2.2 q ⟨q.val - 1024 * (n % 8), by omega⟩ hq ?_).trans ?_
        · exact ihp.trans (colMinBelow_congr (DD m c) hb rfl (by show _ = n / 8 % 8 * 1024; split_ifs <;> omega))
        · exact colMinBelow_congr (DD m c) rfl rfl (by show n / 8 % 8 * 1024 + 1024 = _; split_ifs <;> omega)
      · refine (acc_out m c ⟨n, hn⟩ h0 q (by show q.val < 1024 * (n % 8) ∨ 1024 * (n % 8) + 1024 ≤ q.val; omega)).trans ?_
        exact ihp.trans (colMinBelow_congr (DD m c) hb rfl (by split_ifs <;> omega))

/-- After point t the column accumulator holds, at point q of the second cloud, the least distance from q to the points
    of the first cloud swept so far: the tiles up to and including the current one where q's tile has been visited in
    this sweep (q below 1024·(t % 8 + 1)), the tiles before the current one elsewhere. -/
theorem colAcc_eq (c : Dev nD) (t : Fin cfg0.N) (q : Fin 8192) :
    (outsAt0 m c t.val t.isLt).2.2.2 (ix2 0 q)
      = colMinBelow (DD m c) (bOf t) q
          (if q.val < (t.val % 8 + 1) * 1024 then (t.val / 8 % 8 + 1) * 1024 else (t.val / 8 % 8) * 1024) :=
  colAcc_nat m c t.val t.isLt q

/-- At the last point of a batch element the second output's block holds the least distance to the whole first cloud. -/
theorem out3_eq (c : Dev nD) (t : Fin cfg0.N) (h63 : t.val % 64 = 63) (q : Fin 8192) :
    (outsAt0 m c t.val t.isLt).2.1 (ix3 0 0 q) = colMin (DD m c) (bOf t) q := by
  have hN := tlt t
  have hq8 := q.isLt
  have h0 : ¬t.val % 64 = 0 := by omega
  have h1 : ¬t.val % 8 = 0 := by omega
  have h2 : t.val % 8 = 7 := by omega
  have hacc := colAcc_eq m c t q
  rw [outsAt0_E m c t h0 h1 h2 h63] at hacc ⊢
  dsimp only at hacc ⊢
  -- the block is the column accumulator just updated, entry by entry
  refine (congrFun (Pieces.out_E_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h63) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 q)).trans ?_
  refine (Pay.pay4_apply _ q).trans ?_
  refine hacc.trans ?_
  -- every tile of both clouds has been swept: the least over all of the first cloud
  rw [← colMinBelow_full]
  exact colMinBelow_congr (DD m c) rfl rfl (by split_ifs <;> omega)

end Cert.KernelIdeal.Inv

end
-- ==== Proof.Final.lean ====
/-
  What the run leaves.  The kernel's two output arrays end holding the least distances: the first, at (b, 0, n), the
  least distance from point n of the first cloud of batch element b to the second cloud; the second, at (b, 0, q), the
  least distance from point q of the second cloud to the first.  Each array is written back block by block; the blocks
  that are written back cover it, and each such block holds the least distances of its own stretch, so the array ends
  holding them all.  The host operations after the region then take the two arrays to one number: the mean over each
  cloud, the mean of the two, the mean over the batch.
-/
import proofs.«104237_j16003048145306_1_alg».proof.Proof.RowInv
import proofs.«104237_j16003048145306_1_alg».proof.Proof.ColInv
import Idealize.ShloMosaic.Lib.Pipeline.Value
import Idealize.ShloMosaic.Lib.StableHlo.Run
noncomputable section
namespace Cert.KernelIdeal.Final
open Idealize.ShloMosaic Idealize.ShloMosaic.TcCoe Idealize.ShloMosaic.ValueIdx Idealize.SL.Sem
open Cert.KernelIdeal Cert.KernelIdeal.Gen Cert.KernelIdeal.Blocks Cert.KernelIdeal.Inv Cert.Chamfer
open Idealize.ShloMosaic.Pipeline (Dat)
variable (m : (ℓ : Loc nD τ sig) → Buf (Elt Ideal) ℓ) (ρ : Dev nD → PrngReg)

/-- The first output array after the run: at (b, 0, n) the least distance from point n of the first cloud of batch element b to the second cloud. -/
def outN (c : Dev nD) : (⟨S4x1x8192, .f32⟩ : BufTy).Contents (Elt Ideal) := fun i => rowMin (DD m c) ⟨(i 0).val, (i 0).isLt⟩ ⟨(i 2).val, (i 2).isLt⟩
/-- The second output array after the run: at (b, 0, q) the least distance from point q of the second cloud to the first. -/
def outM (c : Dev nD) : (⟨S4x1x8192, .f32⟩ : BufTy).Contents (Elt Ideal) := fun i => colMin (DD m c) ⟨(i 0).val, (i 0).isLt⟩ ⟨(i 2).val, (i 2).isLt⟩

/-- Every index of a block of shape (1, 1, n) is (0, 0, q). -/
private theorem eq_ix3_00 {n : Nat} (y : (⟨3, ![1, 1, n]⟩ : Shape).Idx) : y = ix3 0 0 (y 2) := by
  funext d
  match d with
  | ⟨0, _⟩ => exact Subsingleton.elim (α := Fin 1) _ _
  | ⟨1, _⟩ => exact Subsingleton.elim (α := Fin 1) _ _
  | ⟨2, _⟩ => rfl

/-- A block of the first output that is written back holds the least distances of its stretch of the first cloud:
    it is that block of the array of all least distances. -/
theorem flushed2_eq (c : Dev nD) (t : Fin cfg0.N) (hf : (cfg0.win 2).flush t = true) :
    (dats m 0 c).flushed 2 t = ((cfg0.win 2).blk t).view.read (Elt Ideal) (outN m c) := by
  have h7 : t.val % 8 = 7 := (flush0_2 t).mp hf
  show (cfg0.win 2).cut (grid0.coords t) ((dats m 0 c).after 2 t) = _
  rw [after0_2]
  funext y
  have hy : y = ix3 0 0 (y 2) := eq_ix3_00 (n := 1024) y
  rw [hy]
  exact (out2_eq m c t h7 (y 2)).trans (read_blk2 c t (outN m c) (y 2)).symm

/-- A block of the second output that is written back holds the least distances of the whole second cloud of its batch
    element: it is that block of the array of all least distances. -/
theorem flushed3_eq (c : Dev nD) (t : Fin cfg0.N) (hf : (cfg0.win 3).flush t = true) :
    (dats m 0 c).flushed 3 t = ((cfg0.win 3).blk t).view.read (Elt Ideal) (outM m c) := by
  have h63 : t.val % 64 = 63 := (flush0_3 t).mp hf
  show (cfg0.win 3).cut (grid0.coords t) ((dats m 0 c).after 3 t) = _
  rw [after0_3]
  funext y
  have hy : y = ix3 0 0 (y 2) := eq_ix3_00 (n := 8192) y
  rw [hy]
  exact (out3_eq m c t h63 (y 2)).trans (read_blk3 c t (outM m c) (y 2)).symm

theorem final2 (c : Dev nD) : (dats m 0 c).arrAt 2 cfg0.N = outN m c :=
  (dats m 0 c).arrAt_eq_of_cover 2 (outN m c) (fun t hf => flushed2_eq m c t hf) (cover2 c)
theorem final3 (c : Dev nD) : (dats m 0 c).arrAt 3 cfg0.N = outM m c :=
  (dats m 0 c).arrAt_eq_of_cover 3 (outM m c) (fun t hf => flushed3_eq m c t hf) (cover3 c)

/-- The host operations after the region, as ONE function of the two output arrays (any float instance): each array
    reshaped to [4, 8192], summed over the cloud from 0 and divided by 8192; the two added and divided by 2; the sum over
    the batch from 0, divided by 4. -/
def tailK {F : FTy → Type} [FloatOps F] (a b : (⟨S4x1x8192, .f32⟩ : BufTy).Contents (Elt F)) : (⟨S_, .f32⟩ : BufTy).Contents (Elt F) :=
  Host.divf (Host.reduceAdd (Host.divf (addf (Host.divf (Host.reduceAdd (shapeCast S4x8192 a shapeCasts_S4x1x8192_S4x8192) (constant S_ .f32 0x00000000#32) reducesTo_S4x8192_S4_d1 h_S_) (broadcastInDim S4 ![] bcast_S_S4 (constant S_ .f32 0x46000000#32))) (Host.divf (Host.reduceAdd (shapeCast S4x8192 b shapeCasts_S4x1x8192_S4x8192) (constant S_ .f32 0x00000000#32) reducesTo_S4x8192_S4_d1 h_S_) (broadcastInDim S4 ![] bcast_S_S4 (constant S_ .f32 0x46000000#32)))) (broadcastInDim S4 ![] bcast_S_S4 (constant S_ .f32 0x40000000#32))) (constant S_ .f32 0x00000000#32) reducesTo_S4_S_d0 h_S_) (constant S_ .f32 0x40800000#32)

/-- What the region leaves in the first output array, as the host operations after it find it. -/
theorem arr2_eq (c : Dev nD) :
    Pipeline.withArrays spec0 c (V0 m c) (fun w => (dats m 0 c).arrAt w cfg0.N) (Proc.devRef .tc main_v0_0) = outN m c :=
  (Pipeline.withArrays_arr spec0 launch0.win.arr_inj c _ _ 2).trans (final2 m c)
/-- What the region leaves in the second output array, as the host operations after it find it. -/
theorem arr3_eq (c : Dev nD) :
    Pipeline.withArrays spec0 c (V0 m c) (fun w => (dats m 0 c).arrAt w cfg0.N) (Proc.devRef .tc main_v0_1) = outM m c :=
  (Pipeline.withArrays_arr spec0 launch0.win.arr_inj c _ _ 3).trans (final3 m c)

/-- The last host operation's result is the tail of the two arrays of least distances. -/
theorem tail_eq (c : Dev nD) :
    Pipeline.afterTail₀ cfgs (dats m) 0 (V0 m) [hostOps1] c main_v13 = tailK (outN m c) (outM m c) := by
  refine Eq.trans ?_ (congrArg₂ tailK (arr2_eq m c) (arr3_eq m c))
  unfold Pipeline.afterTail₀
  show StableHlo.after hostOps1 _ (Proc.devRef .tc main_v13) = _
  after_results
  rfl

/-- The kernel's run, read: the result at the tail of the two arrays of least distances, the arguments unchanged. -/
theorem run : θ_run defs (onTc (τ := τ) (main (F := Ideal))) ⟨m, fun _ => 0, ρ⟩ fun r => ∀ c : Dev nD,
      r.2.mem ((c.tc : Thread nD τ).loc main_v13) = tailK (outN m c) (outM m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v13 (Pipeline.mem_restRefs_of main_v13 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)
end Cert.KernelIdeal.Final
end
-- ==== Proof.RefValue.lean ====
/-
  The reference program read at an index, at the ideal values.

  Its element (b, n, m) before the reductions is the reference's distance between point n of the first cloud and
  point m of the second, in batch element b (`distR`): the two squared norms, each a sum from zero over the three
  coordinates, broadcast along the other cloud and added, less twice the inner product, cut at zero, rooted. The
  minimum over m from +inf is the infimum over the second cloud (`rowMin`), the minimum over n the infimum over
  the first (`colMin`). What follows the two minima (the mean over each cloud, the mean of the two means, the mean
  over the batch) is kept as one function of the two arrays of least distances (`tail`).
-/
import proofs.«104237_j16003048145306_1_alg».proof.Proof.Gen.ReferenceIdeal.Run
import proofs.«104237_j16003048145306_1_alg».proof.Proof.Gen.ReferenceIdeal.Read
import proofs.«104237_j16003048145306_1_alg».proof.Proof.Spec
import Idealize.ShloMosaic.Lib.ValueIdx
import Idealize.ShloMosaic.PureOps.Reduce
import Idealize.ShloMosaic.PureOps.Ideal.Laws
import Mathlib.Data.Finset.Fold

noncomputable section

namespace Cert.ReferenceIdeal.RefValue

open Idealize.ShloMosaic Idealize.ShloMosaic.ValueIdx Cert.ReferenceIdeal Cert.ReferenceIdeal.Gen Cert.Chamfer

/-- The reference's last operations, as ONE function of the two arrays of least distances: the mean over each cloud,
    the mean of the two means, the mean over the batch. Written with the program's own operations and shape facts. -/
def tail {F : FTy → Type} [FloatOps F] (a b : (⟨S4x8192, .f32⟩ : BufTy).Contents (Elt F)) : (⟨S_, .f32⟩ : BufTy).Contents (Elt F) :=
  Host.divf (Host.reduceAdd (Host.divf (addf (Host.divf (Host.reduceAdd a (constant S_ .f32 0x00000000#32) reducesTo_S4x8192_S4_d1 h_S_) (broadcastInDim S4 ![] bcast_S_S4 (constant S_ .f32 0x46000000#32))) (Host.divf (Host.reduceAdd b (constant S_ .f32 0x00000000#32) reducesTo_S4x8192_S4_d1 h_S_) (broadcastInDim S4 ![] bcast_S_S4 (constant S_ .f32 0x46000000#32)))) (broadcastInDim S4 ![] bcast_S_S4 (constant S_ .f32 0x40000000#32))) (constant S_ .f32 0x00000000#32) reducesTo_S4_S_d0 h_S_) (constant S_ .f32 0x40800000#32)

/-! ## The literals -/

/-- The f32 pattern `0x40000000` is the extended real two. -/
private theorem ofBits_two_f32 : Ideal.ofBits .f32 0x40000000#32 = (2 : EReal) := by
  rw [show (2 : EReal) = ((2 : ℝ) : EReal) by norm_cast]
  simp [Ideal.ofBits, Ideal.ieee, -EReal.coe_mul]; norm_num

/-- The f32 pattern `0x7F800000` is +inf. -/
private theorem ofBits_top_f32 : Ideal.ofBits .f32 0x7F800000#32 = (⊤ : EReal) := by
  simp [Ideal.ofBits, Ideal.ieee]

/-! ## The indices the layout operations read at, by coordinates -/

/-- Through the two broadcasts of the first cloud's squared norms, coordinate k of the summand is (b, n, k). -/
private theorem idx_norm0 (b : Fin 4) (n m : Fin 8192) (k : Fin 3) :
    Read.idx_main_v1 (Read.idx_main_v5 (Read.idx_main_v7 (ix3 b n m))) k = ix3 b n k :=
  funext fun a => Fin.ext (by match a with | ⟨0, _⟩ => rfl | ⟨1, _⟩ => rfl | ⟨2, _⟩ => rfl)

/-- Through the two broadcasts of the second cloud's squared norms, coordinate k of the summand is (b, m, k). -/
private theorem idx_norm1 (b : Fin 4) (n m : Fin 8192) (k : Fin 3) :
    Read.idx_main_v3 (Read.idx_main_v6 (Read.idx_main_v8 (ix3 b n m))) k = ix3 b m k :=
  funext fun a => Fin.ext (by match a with | ⟨0, _⟩ => rfl | ⟨1, _⟩ => rfl | ⟨2, _⟩ => rfl)

/-- The inner product's left factor at (b, n, m), contraction coordinate k, is at (b, n, k) … -/
private theorem idx_dotl (b : Fin 4) (n m : Fin 8192) (k : Fin 3) :
    Read.lidx_main_v4 (ix3 b n m) k = ix3 b n k :=
  funext fun a => Fin.ext (by match a with | ⟨0, _⟩ => rfl | ⟨1, _⟩ => rfl | ⟨2, _⟩ => rfl)

/-- … and its right factor at (b, m, k). -/
private theorem idx_dotr (b : Fin 4) (n m : Fin 8192) (k : Fin 3) :
    Read.ridx_main_v4 (ix3 b n m) k = ix3 b m k :=
  funext fun a => Fin.ext (by match a with | ⟨0, _⟩ => rfl | ⟨1, _⟩ => rfl | ⟨2, _⟩ => rfl)

/-! ## The distance -/

/-- Element (b, n, m) of the array the two minima are taken of is the reference's distance between point n of the
    first cloud and point m of the second, in batch element b. -/
theorem v15_apply (P T : (⟨S4x8192x3, .f32⟩ : BufTy).Contents (Elt Ideal)) (b : Fin 4) (n m : Fin 8192) :
    Read.val_main_v15 (F := Ideal) P T (ix3 b n m) = distR P T b n m := by
  simp only [Read.val_main_v15_apply, Read.val_main_v14_apply, Read.val_main_v13_apply, Read.val_main_cst_2_apply,
    Read.val_main_v12_apply, Read.val_main_v11_apply, Read.val_main_v10_apply, Read.val_main_cst_1_apply,
    Read.val_main_v9_apply, Read.val_main_v8_apply, Read.val_main_v7_apply, Read.val_main_v6_apply,
    Read.val_main_v5_apply, Read.val_main_v4_apply, Read.val_main_v3_apply, Read.val_main_v1_apply,
    Read.val_main_cst_apply, Read.val_main_cst_0_apply, Read.val_main_v2_apply, Read.val_main_v0_apply,
    idx_norm0, idx_norm1, idx_dotl, idx_dotr,
    Ideal.hostUnary_sqrt_def, Ideal.maximumf_def, Ideal.subf_def, Ideal.addf_def, Ideal.mulf_def, Ideal.ofBits_def,
    Ideal.ofBits_zero_f32, ofBits_two_f32, distR, dst, d2R, pt]

/-! ## The two minima -/

/-- The minimum of finitely many extended reals, folded from +inf, is their infimum. -/
private theorem fold_min_top_eq_iInf {ι : Type} [Fintype ι] (f : ι → EReal) :
    (Finset.univ : Finset ι).fold min ⊤ f = ⨅ k, f k :=
  eq_of_forall_le_iff fun c => by
    rw [Finset.le_fold_min, le_iInf_iff]
    exact ⟨fun h k => h.2 k (Finset.mem_univ k), fun h => ⟨le_top, fun k _ => h k⟩⟩

/-- The shape fact of the minimum over the second cloud, in the form that names the inserted index. -/
private theorem red2 : S4x8192x8192.Reduces [2] S4x8192 := by decide
/-- The shape fact of the minimum over the first cloud, likewise. -/
private theorem red1 : S4x8192x8192.Reduces [1] S4x8192 := by decide

/-- Inserting m on the last axis of (b, n) gives (b, n, m). -/
private theorem lift2 (b : Fin 4) (n m : Fin 8192) : red2.lift (ix2 b n) m = ix3 b n m :=
  funext fun a => Fin.ext (by match a with | ⟨0, _⟩ => rfl | ⟨1, _⟩ => rfl | ⟨2, _⟩ => rfl)

/-- Inserting n on the middle axis of (b, m) gives (b, n, m). -/
private theorem lift1 (b : Fin 4) (m n : Fin 8192) : red1.lift (ix2 b m) n = ix3 b n m :=
  funext fun a => Fin.ext (by match a with | ⟨0, _⟩ => rfl | ⟨1, _⟩ => rfl | ⟨2, _⟩ => rfl)

/-- The minimum over the second cloud, from +inf: the least distance of point n of the first cloud to the second. -/
theorem v16_apply (P T : (⟨S4x8192x3, .f32⟩ : BufTy).Contents (Elt Ideal)) (b : Fin 4) (n : Fin 8192) :
    Read.val_main_v16 (F := Ideal) P T (ix2 b n) = rowMin (distR P T) b n := by
  unfold Read.val_main_v16
  refine (Host.reduce_eq_fold_single (FloatOps.minimumf (F := Ideal) (φ := .f32)) (Read.val_main_v15 (F := Ideal) P T)
    (Read.val_main_cst_3 (F := Ideal)) reducesTo_S4x8192x8192_S4x8192_d2 red2 h_S_ (ix2 b n)).trans ?_
  have e : (Read.val_main_v15 (F := Ideal) P T ∘ red2.lift (ix2 b n)) = fun m : Fin 8192 => distR P T b n m :=
    funext fun m : Fin 8192 =>
      (congrArg (Read.val_main_v15 (F := Ideal) P T) (lift2 b n m)).trans (v15_apply P T b n m)
  rw [e, Read.val_main_cst_3_apply, Ideal.ofBits_def, ofBits_top_f32]
  exact fold_min_top_eq_iInf _

/-- The minimum over the first cloud, from +inf: the least distance of point m of the second cloud to the first. -/
theorem v17_apply (P T : (⟨S4x8192x3, .f32⟩ : BufTy).Contents (Elt Ideal)) (b : Fin 4) (m : Fin 8192) :
    Read.val_main_v17 (F := Ideal) P T (ix2 b m) = colMin (distR P T) b m := by
  unfold Read.val_main_v17
  refine (Host.reduce_eq_fold_single (FloatOps.minimumf (F := Ideal) (φ := .f32)) (Read.val_main_v15 (F := Ideal) P T)
    (Read.val_main_cst_4 (F := Ideal)) reducesTo_S4x8192x8192_S4x8192_d1 red1 h_S_ (ix2 b m)).trans ?_
  have e : (Read.val_main_v15 (F := Ideal) P T ∘ red1.lift (ix2 b m)) = fun n : Fin 8192 => distR P T b n m :=
    funext fun n : Fin 8192 =>
      (congrArg (Read.val_main_v15 (F := Ideal) P T) (lift1 b m n)).trans (v15_apply P T b n m)
  rw [e, Read.val_main_cst_4_apply, Ideal.ofBits_def, ofBits_top_f32]
  exact fold_min_top_eq_iInf _

/-! ## The whole reference -/

/-- The whole reference: the tail of the two arrays of least distances. -/
theorem result_eq (P T : (⟨S4x8192x3, .f32⟩ : BufTy).Contents (Elt Ideal)) :
    Read.val_main_v28 (F := Ideal) P T
      = tail (F := Ideal) (fun i => rowMin (distR P T) (i 0) (i 1)) (fun i => colMin (distR P T) (i 0) (i 1)) := by
  have e16 : Read.val_main_v16 (F := Ideal) P T = fun i => rowMin (distR P T) (i 0) (i 1) :=
    funext fun i =>
      (congrArg (Read.val_main_v16 (F := Ideal) P T) (eq_ix2 (n0 := 4) (n1 := 8192) i)).trans (v16_apply P T (i 0) (i 1))
  have e17 : Read.val_main_v17 (F := Ideal) P T = fun i => colMin (distR P T) (i 0) (i 1) :=
    funext fun i =>
      (congrArg (Read.val_main_v17 (F := Ideal) P T) (eq_ix2 (n0 := 4) (n1 := 8192) i)).trans (v17_apply P T (i 0) (i 1))
  rw [← e16, ← e17]
  rfl

end Cert.ReferenceIdeal.RefValue

end
-- ==== Proof.Bridge.lean ====
/-
  The two programs end with the same host operations: the mean over each cloud of the least distances, the mean of the
  two means, the mean over the batch.  The kernel applies them to its two output arrays of shape [4, 1, 8192], reshaped
  to [4, 8192]; the reference to arrays of shape [4, 8192].  A reshape keeps the row-major position, so entry (b, n) of
  the reshaped array is entry (b, 0, n) of the original, and the kernel's tail of two arrays is the reference's tail of
  the same arrays read at (b, 0, n).
-/
import proofs.«104237_j16003048145306_1_alg».proof.Proof.Final
import proofs.«104237_j16003048145306_1_alg».proof.Proof.RefValue
import Idealize.ShloMosaic.Lib.Pipeline.Value
import Idealize.ShloMosaic.Lib.ValueIdx

noncomputable section

namespace Cert.Proof.Bridge

open Idealize.ShloMosaic Idealize.ShloMosaic.ValueIdx

/-- Entry (b, n) of a [4, 1, 8192] array reshaped to [4, 8192] is its entry (b, 0, n). -/
theorem reshape_apply {α : Type} (a : Cert.KernelIdeal.S4x1x8192.Idx → α)
    (h : Cert.KernelIdeal.S4x1x8192.ShapeCasts Cert.KernelIdeal.S4x8192) (b : Fin 4) (n : Fin 8192) :
    shapeCast Cert.KernelIdeal.S4x8192 a h (ix2 b n) = a (ix3 b 0 n) :=
  shapeCast_apply a h (ix2 b n) (ix3 b 0 n) (by
    rw [Shape.rowMajor_val_three, Shape.rowMajor_val_two]
    show (b.val * 1 + 0) * 8192 + n.val = b.val * 8192 + n.val
    omega)

/-- The reshaped array, as a function of its index. -/
theorem reshape_eq {α : Type} (a : Cert.KernelIdeal.S4x1x8192.Idx → α)
    (h : Cert.KernelIdeal.S4x1x8192.ShapeCasts Cert.KernelIdeal.S4x8192) :
    shapeCast Cert.KernelIdeal.S4x8192 a h = fun i => a (ix3 (i 0) 0 (i 1)) := by
  funext i
  obtain ⟨b, n, rfl⟩ : ∃ (b : Fin 4) (n : Fin 8192), i = ix2 b n := ⟨i 0, i 1, eq_ix2 i⟩
  exact reshape_apply a h b n

/-- The kernel's tail of two output arrays is the reference's tail of the same arrays read at (b, 0, n). -/
theorem tailK_eq (a b : (⟨Cert.KernelIdeal.S4x1x8192, .f32⟩ : BufTy).Contents (Elt Ideal)) :
    Cert.KernelIdeal.Final.tailK (F := Ideal) a b
      = Cert.ReferenceIdeal.RefValue.tail (F := Ideal) (fun i => a (ix3 (i 0) 0 (i 1))) (fun i => b (ix3 (i 0) 0 (i 1))) := by
  unfold Cert.KernelIdeal.Final.tailK Cert.ReferenceIdeal.RefValue.tail
  rw [reshape_eq a, reshape_eq b]

end Cert.Proof.Bridge

end
-- ==== Proof.lean ====
/-
  Chamfer distance between two clouds of 8192 points in R^3, for 4 batch elements: for every point the distance to the
  nearest point of the other cloud, averaged over each cloud, the two averages averaged, then averaged over the batch.

  The kernel sweeps the 8192 x 8192 matrix of distances in 1024 x 1024 tiles on a 4 x 8 x 8 grid, forming each distance
  as the root of the sum of the three squared coordinate differences (cut at zero), and keeps running minima along the
  rows and along the columns in two accumulators, which it copies out at the end of each sweep; the averages are taken
  on the host.  The reference forms the squared distance as |p|^2 + |t|^2 - 2 p.t instead, takes the two minima of the
  whole matrix, and the same averages.

  At the ideal instance a float is an extended real and every operation is exact, so the two programs differ in one law
  only: (p - t).(p - t) = p.p + t.t - 2 p.t, which holds for finite coordinates (Proof/Algebra.lean) — the precondition
  (Proof/Finite.lean).  The running minima are infima over growing stretches of the other cloud (Proof/Spec.lean), which
  an induction over the grid's points carries through the kernel's five control cases (Proof/RowInv.lean,
  Proof/ColInv.lean, over the found stores of Proof/Pieces.lean and the payloads of Proof/Payload.lean), the blocks
  written back tile the output arrays (Proof/Blocks.lean, Proof/Final.lean), the reference's two reductions are the same
  infima (Proof/RefValue.lean), and the common tail of host operations is applied to equal arrays (Proof/Bridge.lean).
  The idealization rewrote nothing, so the kernel and its idealization are one text read at two instances.
-/
import proofs.«104237_j16003048145306_1_alg».proof.Defs
import proofs.«104237_j16003048145306_1_alg».proof.Proof.Gen.Kernel
import proofs.«104237_j16003048145306_1_alg».proof.Proof.Gen.Kernel.Skeleton
import proofs.«104237_j16003048145306_1_alg».proof.Proof.Gen.Kernel.Launch
import proofs.«104237_j16003048145306_1_alg».proof.Proof.Gen.Kernel.Points
import proofs.«104237_j16003048145306_1_alg».proof.Proof.Gen.Kernel.Frame
import proofs.«104237_j16003048145306_1_alg».proof.Proof.Gen.KernelIdeal
import proofs.«104237_j16003048145306_1_alg».proof.Proof.Gen.KernelIdeal.Skeleton
import proofs.«104237_j16003048145306_1_alg».proof.Proof.Gen.KernelIdeal.Launch
import proofs.«104237_j16003048145306_1_alg».proof.Proof.Gen.KernelIdeal.Points
import proofs.«104237_j16003048145306_1_alg».proof.Proof.Gen.KernelIdeal.Frame
import proofs.«104237_j16003048145306_1_alg».proof.Proof.Gen.ReferenceIdeal
import proofs.«104237_j16003048145306_1_alg».proof.Proof.Gen.ReferenceIdeal.Run
import proofs.«104237_j16003048145306_1_alg».proof.Proof.Gen.ReferenceIdeal.Read
import proofs.«104237_j16003048145306_1_alg».proof.Proof.Gen.Pre_finite_inputs
import proofs.«104237_j16003048145306_1_alg».proof.Proof.Algebra
import proofs.«104237_j16003048145306_1_alg».proof.Proof.Finite
import proofs.«104237_j16003048145306_1_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the common tail of the two arrays of least distances: the kernel's over its own
    distances, the reference's over its own, and for finite inputs the two distances are one function. -/
theorem algebraic : Cert.algebraic_KernelIdeal_ReferenceIdeal := by
  intro m ρ m' ρ' hpre hagree
  refine ⟨fun c => Cert.KernelIdeal.Final.tailK (Cert.KernelIdeal.Final.outN m c) (Cert.KernelIdeal.Final.outM m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hT⟩ := Cert.Chamfer.Finite.real_of_pre _ _ (hpre c)
  -- for finite clouds the reference's distances are the kernel's
  have hD : Cert.Chamfer.distR (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KernelIdeal.Inv.DD m c :=
    (Cert.Chamfer.distK_eq_distR _ _ hP hT).symm
  -- the reference's result, as the tail of its two arrays of least distances, at the kernel's arguments
  refine Eq.trans (b := Cert.ReferenceIdeal.Read.val_main_v28 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
    (by rw [(hagree c).1, (hagree c).2]; exact Cert.ReferenceIdeal.Read.val_main_v28_eq _ _) ?_
  refine (Cert.ReferenceIdeal.RefValue.result_eq _ _).trans ?_
  refine Eq.trans ?_ (Cert.Proof.Bridge.tailK_eq _ _).symm
  refine congrArg₂ (Cert.ReferenceIdeal.RefValue.tail (F := Ideal)) (funext fun i => ?_) (funext fun i => ?_)
  · exact (congrArg (fun D => Cert.Chamfer.rowMin D (i 0) (i 1)) hD).trans rfl
  · exact (congrArg (fun D => Cert.Chamfer.colMin D (i 0) (i 1)) hD).trans rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
